-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v246)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v246) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x512x512 : Shape := ⟨4, ![4, 8, 512, 512]⟩
abbrev S4x3x512x512 : Shape := ⟨4, ![4, 3, 512, 512]⟩
abbrev S107811x8 : Shape := ⟨2, ![107811, 8]⟩
abbrev S_ : Shape := ⟨0, ![]⟩

class Facts : Prop where
  bcast_S_S4x8x512x512 : S_.BroadcastsInDim S4x8x512x512 (![] : Fin 0 → Fin S4x8x512x512.rank)
  reducesTo_S4x8x512x512_S_d0_1_2_3 : S4x8x512x512.ReducesTo [0, 1, 2, 3] S_
  h_S_ : 0 < S_.numel
  bcast_S_S4x3x512x512 : S_.BroadcastsInDim S4x3x512x512 (![] : Fin 0 → Fin S4x3x512x512.rank)
  reducesTo_S4x3x512x512_S_d0_1_2_3 : S4x3x512x512.ReducesTo [0, 1, 2, 3] S_
  bcast_S_S107811x8 : S_.BroadcastsInDim S107811x8 (![] : Fin 0 → Fin S107811x8.rank)
  reducesTo_S107811x8_S_d0_1 : S107811x8.ReducesTo [0, 1] S_

variable [Facts]

def fn_part1 {F : FTy → Type} [FloatOps F] (main_v13 : IVec S_ 1) (main_v16 : IVec S107811x8 1) : IVec S_ 1 :=
  let main_c_5 : IVec S_ 1 := constantI S_ 1 1#1
  let main_v17 : IVec S_ 1 := (fun x v => Host.reduce IntOp.andi x v reducesTo_S107811x8_S_d0_1 h_S_) main_v16 main_c_5
  let main_v18 : IVec S_ 1 := andi main_v13 main_v17
  main_v18

def fn {F : FTy → Type} [FloatOps F] (main_arg0 : FVec F S4x8x512x512 .f32) (main_arg1 : FVec F S4x8x512x512 .f32) (main_arg2 : FVec F S4x3x512x512 .f32) (main_arg3 : FVec F S107811x8 .f32) : IVec S_ 1 :=
  let main_v0 : FVec F S4x8x512x512 .f32 := Host.absf main_arg0
  let main_cst : FVec F S_ .f32 := constant S_ .f32 0x7F800000#32
  let main_v1 : FVec F S4x8x512x512 .f32 := broadcastInDim S4x8x512x512 ![] bcast_S_S4x8x512x512 main_cst
  let main_v2 : IVec S4x8x512x512 1 := cmpf .olt main_v0 main_v1
  let main_c : IVec S_ 1 := constantI S_ 1 1#1
  let main_v3 : IVec S_ 1 := (fun x v => Host.reduce IntOp.andi x v reducesTo_S4x8x512x512_S_d0_1_2_3 h_S_) main_v2 main_c
  let main_v4 : FVec F S4x8x512x512 .f32 := Host.absf main_arg1
  let main_cst_0 : FVec F S_ .f32 := constant S_ .f32 0x7F800000#32
  let main_v5 : FVec F S4x8x512x512 .f32 := broadcastInDim S4x8x512x512 ![] bcast_S_S4x8x512x512 main_cst_0
  let main_v6 : IVec S4x8x512x512 1 := cmpf .olt main_v4 main_v5
  let main_c_1 : IVec S_ 1 := constantI S_ 1 1#1
  let main_v7 : IVec S_ 1 := (fun x v => Host.reduce IntOp.andi x v reducesTo_S4x8x512x512_S_d0_1_2_3 h_S_) main_v6 main_c_1
  let main_v8 : IVec S_ 1 := andi main_v3 main_v7
  let main_v9 : FVec F S4x3x512x512 .f32 := Host.absf main_arg2
  let main_cst_2 : FVec F S_ .f32 := constant S_ .f32 0x7F800000#32
  let main_v10 : FVec F S4x3x512x512 .f32 := broadcastInDim S4x3x512x512 ![] bcast_S_S4x3x512x512 main_cst_2
  let main_v11 : IVec S4x3x512x512 1 := cmpf .olt main_v9 main_v10
  let main_c_3 : IVec S_ 1 := constantI S_ 1 1#1
  let main_v12 : IVec S_ 1 := (fun x v => Host.reduce IntOp.andi x v reducesTo_S4x3x512x512_S_d0_1_2_3 h_S_) main_v11 main_c_3
  let main_v13 : IVec S_ 1 := andi main_v8 main_v12
  let main_v14 : FVec F S107811x8 .f32 := Host.absf main_arg3
  let main_cst_4 : FVec F S_ .f32 := constant S_ .f32 0x7F800000#32
  let main_v15 : FVec F S107811x8 .f32 := broadcastInDim S107811x8 ![] bcast_S_S107811x8 main_cst_4
  let main_v16 : IVec S107811x8 1 := cmpf .olt main_v14 main_v15
  fn_part1 (F := F) main_v13 main_v16
-- ==== Kernel.lean ====
abbrev S4x8x512x512 : Shape := ⟨4, ![4, 8, 512, 512]⟩
abbrev S4x3x512x512 : Shape := ⟨4, ![4, 3, 512, 512]⟩
abbrev S107811x8 : Shape := ⟨2, ![107811, 8]⟩
abbrev S8x107811 : Shape := ⟨2, ![8, 107811]⟩
abbrev S8x3x33x33x33 : Shape := ⟨5, ![8, 3, 33, 33, 33]⟩
abbrev S_ : Shape := ⟨0, ![]⟩
abbrev S4x1x512x512 : Shape := ⟨4, ![4, 1, 512, 512]⟩
abbrev S4x512x512 : Shape := ⟨3, ![4, 512, 512]⟩
abbrev S4x512x512x1 : Shape := ⟨4, ![4, 512, 512, 1]⟩
abbrev S4x512x512x3 : Shape := ⟨4, ![4, 512, 512, 3]⟩
abbrev S8x3x4x512x512 : Shape := ⟨5, ![8, 3, 4, 512, 512]⟩
abbrev S1x1x4x512x512 : Shape := ⟨5, ![1, 1, 4, 512, 512]⟩
abbrev S4x8x3x512x512 : Shape := ⟨5, ![4, 8, 3, 512, 512]⟩
abbrev S1x8x128x512 : Shape := ⟨4, ![1, 8, 128, 512]⟩
abbrev S1x8x3x128x512 : Shape := ⟨5, ![1, 8, 3, 128, 512]⟩
abbrev S1x3x128x512 : Shape := ⟨4, ![1, 3, 128, 512]⟩
abbrev S1x8x1x128x512 : Shape := ⟨5, ![1, 8, 1, 128, 512]⟩

abbrev nBuf : Space → Nat
  | .hbm => 334
  | .vmem => 8
  | .smem => 0
  | _ => 0

abbrev hbmTy0_0 (i : Nat) : BufTy := match i % 128 with
  | 0 => ⟨S4x8x512x512, .f32⟩
  | 1 => ⟨S4x8x512x512, .f32⟩
  | 2 => ⟨S4x3x512x512, .f32⟩
  | 3 => ⟨S107811x8, .f32⟩
  | 4 => ⟨S8x107811, .f32⟩
  | 5 => ⟨S8x3x33x33x33, .f32⟩
  | 6 => ⟨S_, .f32⟩
  | 7 => ⟨S4x3x512x512, .f32⟩
  | 8 => ⟨S4x3x512x512, .f32⟩
  | 9 => ⟨S_, .f32⟩
  | 10 => ⟨S_, .f32⟩
  | 11 => ⟨S_, .f32⟩
  | 12 => ⟨S4x3x512x512, .f32⟩
  | 13 => ⟨S4x3x512x512, .f32⟩
  | 14 => ⟨S_, .f32⟩
  | 15 => ⟨S4x3x512x512, .f32⟩
  | 16 => ⟨S4x3x512x512, .f32⟩
  | 17 => ⟨S4x1x512x512, .f32⟩
  | 18 => ⟨S4x512x512, .f32⟩
  | 19 => ⟨S4x1x512x512, .f32⟩
  | 20 => ⟨S4x512x512, .f32⟩
  | 21 => ⟨S4x1x512x512, .f32⟩
  | 22 => ⟨S4x512x512, .f32⟩
  | 23 => ⟨S4x512x512, .f32⟩
  | 24 => ⟨S4x512x512, .i32⟩
  | 25 => ⟨S_, .i32⟩
  | 26 => ⟨S_, .i32⟩
  | 27 => ⟨S_, .i32⟩
  | 28 => ⟨S4x512x512, .i32⟩
  | 29 => ⟨S4x512x512, .i32⟩
  | 30 => ⟨S_, .i32⟩
  | 31 => ⟨S4x512x512, .i32⟩
  | 32 => ⟨S4x512x512, .i32⟩
  | 33 => ⟨S4x512x512, .f32⟩
  | 34 => ⟨S4x512x512, .f32⟩
  | 35 => ⟨S4x512x512, .f32⟩
  | 36 => ⟨S4x512x512, .i32⟩
  | 37 => ⟨S_, .i32⟩
  | 38 => ⟨S_, .i32⟩
  | 39 => ⟨S_, .i32⟩
  | 40 => ⟨S4x512x512, .i32⟩
  | 41 => ⟨S4x512x512, .i32⟩
  | 42 => ⟨S_, .i32⟩
  | 43 => ⟨S4x512x512, .i32⟩
  | 44 => ⟨S4x512x512, .i32⟩
  | 45 => ⟨S4x512x512, .f32⟩
  | 46 => ⟨S4x512x512, .f32⟩
  | 47 => ⟨S4x512x512, .f32⟩
  | 48 => ⟨S4x512x512, .i32⟩
  | 49 => ⟨S_, .i32⟩
  | 50 => ⟨S_, .i32⟩
  | 51 => ⟨S_, .i32⟩
  | 52 => ⟨S4x512x512, .i32⟩
  | 53 => ⟨S4x512x512, .i32⟩
  | 54 => ⟨S_, .i32⟩
  | 55 => ⟨S4x512x512, .i32⟩
  | 56 => ⟨S4x512x512, .i32⟩
  | 57 => ⟨S4x512x512, .f32⟩
  | 58 => ⟨S4x512x512, .f32⟩
  | 59 => ⟨S_, .i32⟩
  | 60 => ⟨S4x512x512, .i32⟩
  | 61 => ⟨S4x512x512, .i32⟩
  | 62 => ⟨S_, .i32⟩
  | 63 => ⟨S4x512x512, .i32⟩
  | 64 => ⟨S4x512x512, .i32⟩
  | 65 => ⟨S_, .i32⟩
  | 66 => ⟨S4x512x512, .i32⟩
  | 67 => ⟨S4x512x512, .i32⟩
  | 68 => ⟨S_, .f32⟩
  | 69 => ⟨S4x512x512, .f32⟩
  | 70 => ⟨S4x512x512, .f32⟩
  | 71 => ⟨S_, .f32⟩
  | 72 => ⟨S4x512x512, .f32⟩
  | 73 => ⟨S4x512x512, .f32⟩
  | 74 => ⟨S_, .f32⟩
  | 75 => ⟨S4x512x512, .f32⟩
  | 76 => ⟨S4x512x512, .f32⟩
  | 77 => ⟨S_, .i32⟩
  | 78 => ⟨S4x512x512, .i32⟩
  | 79 => ⟨S4x512x512, .i1⟩
  | 80 => ⟨S_, .i32⟩
  | 81 => ⟨S4x512x512, .i32⟩
  | 82 => ⟨S4x512x512, .i32⟩
  | 83 => ⟨S4x512x512, .i32⟩
  | 84 => ⟨S_, .i32⟩
  | 85 => ⟨S4x512x512, .i32⟩
  | 86 => ⟨S4x512x512, .i1⟩
  | 87 => ⟨S_, .i32⟩
  | 88 => ⟨S4x512x512, .i32⟩
  | 89 => ⟨S4x512x512, .i32⟩
  | 90 => ⟨S4x512x512, .i32⟩
  | 91 => ⟨S_, .i32⟩
  | 92 => ⟨S4x512x512, .i32⟩
  | 93 => ⟨S4x512x512, .i1⟩
  | 94 => ⟨S_, .i32⟩
  | 95 => ⟨S4x512x512, .i32⟩
  | 96 => ⟨S4x512x512, .i32⟩
  | 97 => ⟨S4x512x512, .i32⟩
  | 98 => ⟨S4x512x512x1, .i32⟩
  | 99 => ⟨S4x512x512x1, .i32⟩
  | 100 => ⟨S4x512x512x1, .i32⟩
  | 101 => ⟨S4x512x512x3, .i32⟩
  | 102 => ⟨S8x3x4x512x512, .f32⟩
  | 103 => ⟨S4x512x512, .f32⟩
  | 104 => ⟨S4x512x512, .f32⟩
  | 105 => ⟨S1x1x4x512x512, .f32⟩
  | 106 => ⟨S8x3x4x512x512, .f32⟩
  | 107 => ⟨S8x3x4x512x512, .f32⟩
  | 108 => ⟨S_, .i32⟩
  | 109 => ⟨S4x512x512, .i32⟩
  | 110 => ⟨S4x512x512, .i1⟩
  | 111 => ⟨S_, .i32⟩
  | 112 => ⟨S4x512x512, .i32⟩
  | 113 => ⟨S4x512x512, .i32⟩
  | 114 => ⟨S4x512x512, .i32⟩
  | 115 => ⟨S_, .i32⟩
  | 116 => ⟨S4x512x512, .i32⟩
  | 117 => ⟨S4x512x512, .i1⟩
  | 118 => ⟨S_, .i32⟩
  | 119 => ⟨S4x512x512, .i32⟩
  | 120 => ⟨S4x512x512, .i32⟩
  | 121 => ⟨S4x512x512, .i32⟩
  | 122 => ⟨S_, .i32⟩
  | 123 => ⟨S4x512x512, .i32⟩
  | 124 => ⟨S4x512x512, .i1⟩
  | 125 => ⟨S_, .i32⟩
  | 126 => ⟨S4x512x512, .i32⟩
  | 127 => ⟨S4x512x512, .i32⟩
  | _ => ⟨S4x8x512x512, .f32⟩

abbrev hbmTy0_1 (i : Nat) : BufTy := match i % 128 with
  | 0 => ⟨S4x512x512, .i32⟩
  | 1 => ⟨S4x512x512x1, .i32⟩
  | 2 => ⟨S4x512x512x1, .i32⟩
  | 3 => ⟨S4x512x512x1, .i32⟩
  | 4 => ⟨S4x512x512x3, .i32⟩
  | 5 => ⟨S8x3x4x512x512, .f32⟩
  | 6 => ⟨S4x512x512, .f32⟩
  | 7 => ⟨S4x512x512, .f32⟩
  | 8 => ⟨S1x1x4x512x512, .f32⟩
  | 9 => ⟨S8x3x4x512x512, .f32⟩
  | 10 => ⟨S8x3x4x512x512, .f32⟩
  | 11 => ⟨S8x3x4x512x512, .f32⟩
  | 12 => ⟨S_, .i32⟩
  | 13 => ⟨S4x512x512, .i32⟩
  | 14 => ⟨S4x512x512, .i1⟩
  | 15 => ⟨S_, .i32⟩
  | 16 => ⟨S4x512x512, .i32⟩
  | 17 => ⟨S4x512x512, .i32⟩
  | 18 => ⟨S4x512x512, .i32⟩
  | 19 => ⟨S_, .i32⟩
  | 20 => ⟨S4x512x512, .i32⟩
  | 21 => ⟨S4x512x512, .i1⟩
  | 22 => ⟨S_, .i32⟩
  | 23 => ⟨S4x512x512, .i32⟩
  | 24 => ⟨S4x512x512, .i32⟩
  | 25 => ⟨S4x512x512, .i32⟩
  | 26 => ⟨S_, .i32⟩
  | 27 => ⟨S4x512x512, .i32⟩
  | 28 => ⟨S4x512x512, .i1⟩
  | 29 => ⟨S_, .i32⟩
  | 30 => ⟨S4x512x512, .i32⟩
  | 31 => ⟨S4x512x512, .i32⟩
  | 32 => ⟨S4x512x512, .i32⟩
  | 33 => ⟨S4x512x512x1, .i32⟩
  | 34 => ⟨S4x512x512x1, .i32⟩
  | 35 => ⟨S4x512x512x1, .i32⟩
  | 36 => ⟨S4x512x512x3, .i32⟩
  | 37 => ⟨S8x3x4x512x512, .f32⟩
  | 38 => ⟨S4x512x512, .f32⟩
  | 39 => ⟨S4x512x512, .f32⟩
  | 40 => ⟨S1x1x4x512x512, .f32⟩
  | 41 => ⟨S8x3x4x512x512, .f32⟩
  | 42 => ⟨S8x3x4x512x512, .f32⟩
  | 43 => ⟨S8x3x4x512x512, .f32⟩
  | 44 => ⟨S_, .i32⟩
  | 45 => ⟨S4x512x512, .i32⟩
  | 46 => ⟨S4x512x512, .i1⟩
  | 47 => ⟨S_, .i32⟩
  | 48 => ⟨S4x512x512, .i32⟩
  | 49 => ⟨S4x512x512, .i32⟩
  | 50 => ⟨S4x512x512, .i32⟩
  | 51 => ⟨S_, .i32⟩
  | 52 => ⟨S4x512x512, .i32⟩
  | 53 => ⟨S4x512x512, .i1⟩
  | 54 => ⟨S_, .i32⟩
  | 55 => ⟨S4x512x512, .i32⟩
  | 56 => ⟨S4x512x512, .i32⟩
  | 57 => ⟨S4x512x512, .i32⟩
  | 58 => ⟨S_, .i32⟩
  | 59 => ⟨S4x512x512, .i32⟩
  | 60 => ⟨S4x512x512, .i1⟩
  | 61 => ⟨S_, .i32⟩
  | 62 => ⟨S4x512x512, .i32⟩
  | 63 => ⟨S4x512x512, .i32⟩
  | 64 => ⟨S4x512x512, .i32⟩
  | 65 => ⟨S4x512x512x1, .i32⟩
  | 66 => ⟨S4x512x512x1, .i32⟩
  | 67 => ⟨S4x512x512x1, .i32⟩
  | 68 => ⟨S4x512x512x3, .i32⟩
  | 69 => ⟨S8x3x4x512x512, .f32⟩
  | 70 => ⟨S4x512x512, .f32⟩
  | 71 => ⟨S4x512x512, .f32⟩
  | 72 => ⟨S1x1x4x512x512, .f32⟩
  | 73 => ⟨S8x3x4x512x512, .f32⟩
  | 74 => ⟨S8x3x4x512x512, .f32⟩
  | 75 => ⟨S8x3x4x512x512, .f32⟩
  | 76 => ⟨S_, .i32⟩
  | 77 => ⟨S4x512x512, .i32⟩
  | 78 => ⟨S4x512x512, .i1⟩
  | 79 => ⟨S_, .i32⟩
  | 80 => ⟨S4x512x512, .i32⟩
  | 81 => ⟨S4x512x512, .i32⟩
  | 82 => ⟨S4x512x512, .i32⟩
  | 83 => ⟨S_, .i32⟩
  | 84 => ⟨S4x512x512, .i32⟩
  | 85 => ⟨S4x512x512, .i1⟩
  | 86 => ⟨S_, .i32⟩
  | 87 => ⟨S4x512x512, .i32⟩
  | 88 => ⟨S4x512x512, .i32⟩
  | 89 => ⟨S4x512x512, .i32⟩
  | 90 => ⟨S_, .i32⟩
  | 91 => ⟨S4x512x512, .i32⟩
  | 92 => ⟨S4x512x512, .i1⟩
  | 93 => ⟨S_, .i32⟩
  | 94 => ⟨S4x512x512, .i32⟩
  | 95 => ⟨S4x512x512, .i32⟩
  | 96 => ⟨S4x512x512, .i32⟩
  | 97 => ⟨S4x512x512x1, .i32⟩
  | 98 => ⟨S4x512x512x1, .i32⟩
  | 99 => ⟨S4x512x512x1, .i32⟩
  | 100 => ⟨S4x512x512x3, .i32⟩
  | 101 => ⟨S8x3x4x512x512, .f32⟩
  | 102 => ⟨S4x512x512, .f32⟩
  | 103 => ⟨S4x512x512, .f32⟩
  | 104 => ⟨S1x1x4x512x512, .f32⟩
  | 105 => ⟨S8x3x4x512x512, .f32⟩
  | 106 => ⟨S8x3x4x512x512, .f32⟩
  | 107 => ⟨S8x3x4x512x512, .f32⟩
  | 108 => ⟨S_, .i32⟩
  | 109 => ⟨S4x512x512, .i32⟩
  | 110 => ⟨S4x512x512, .i1⟩
  | 111 => ⟨S_, .i32⟩
  | 112 => ⟨S4x512x512, .i32⟩
  | 113 => ⟨S4x512x512, .i32⟩
  | 114 => ⟨S4x512x512, .i32⟩
  | 115 => ⟨S_, .i32⟩
  | 116 => ⟨S4x512x512, .i32⟩
  | 117 => ⟨S4x512x512, .i1⟩
  | 118 => ⟨S_, .i32⟩
  | 119 => ⟨S4x512x512, .i32⟩
  | 120 => ⟨S4x512x512, .i32⟩
  | 121 => ⟨S4x512x512, .i32⟩
  | 122 => ⟨S_, .i32⟩
  | 123 => ⟨S4x512x512, .i32⟩
  | 124 => ⟨S4x512x512, .i1⟩
  | 125 => ⟨S_, .i32⟩
  | 126 => ⟨S4x512x512, .i32⟩
  | 127 => ⟨S4x512x512, .i32⟩
  | _ => ⟨S4x8x512x512, .f32⟩

abbrev hbmTy0_2 (i : Nat) : BufTy := match i % 128 with
  | 0 => ⟨S4x512x512, .i32⟩
  | 1 => ⟨S4x512x512x1, .i32⟩
  | 2 => ⟨S4x512x512x1, .i32⟩
  | 3 => ⟨S4x512x512x1, .i32⟩
  | 4 => ⟨S4x512x512x3, .i32⟩
  | 5 => ⟨S8x3x4x512x512, .f32⟩
  | 6 => ⟨S4x512x512, .f32⟩
  | 7 => ⟨S4x512x512, .f32⟩
  | 8 => ⟨S1x1x4x512x512, .f32⟩
  | 9 => ⟨S8x3x4x512x512, .f32⟩
  | 10 => ⟨S8x3x4x512x512, .f32⟩
  | 11 => ⟨S8x3x4x512x512, .f32⟩
  | 12 => ⟨S_, .i32⟩
  | 13 => ⟨S4x512x512, .i32⟩
  | 14 => ⟨S4x512x512, .i1⟩
  | 15 => ⟨S_, .i32⟩
  | 16 => ⟨S4x512x512, .i32⟩
  | 17 => ⟨S4x512x512, .i32⟩
  | 18 => ⟨S4x512x512, .i32⟩
  | 19 => ⟨S_, .i32⟩
  | 20 => ⟨S4x512x512, .i32⟩
  | 21 => ⟨S4x512x512, .i1⟩
  | 22 => ⟨S_, .i32⟩
  | 23 => ⟨S4x512x512, .i32⟩
  | 24 => ⟨S4x512x512, .i32⟩
  | 25 => ⟨S4x512x512, .i32⟩
  | 26 => ⟨S_, .i32⟩
  | 27 => ⟨S4x512x512, .i32⟩
  | 28 => ⟨S4x512x512, .i1⟩
  | 29 => ⟨S_, .i32⟩
  | 30 => ⟨S4x512x512, .i32⟩
  | 31 => ⟨S4x512x512, .i32⟩
  | 32 => ⟨S4x512x512, .i32⟩
  | 33 => ⟨S4x512x512x1, .i32⟩
  | 34 => ⟨S4x512x512x1, .i32⟩
  | 35 => ⟨S4x512x512x1, .i32⟩
  | 36 => ⟨S4x512x512x3, .i32⟩
  | 37 => ⟨S8x3x4x512x512, .f32⟩
  | 38 => ⟨S4x512x512, .f32⟩
  | 39 => ⟨S4x512x512, .f32⟩
  | 40 => ⟨S1x1x4x512x512, .f32⟩
  | 41 => ⟨S8x3x4x512x512, .f32⟩
  | 42 => ⟨S8x3x4x512x512, .f32⟩
  | 43 => ⟨S8x3x4x512x512, .f32⟩
  | 44 => ⟨S_, .i32⟩
  | 45 => ⟨S4x512x512, .i32⟩
  | 46 => ⟨S4x512x512, .i1⟩
  | 47 => ⟨S_, .i32⟩
  | 48 => ⟨S4x512x512, .i32⟩
  | 49 => ⟨S4x512x512, .i32⟩
  | 50 => ⟨S4x512x512, .i32⟩
  | 51 => ⟨S_, .i32⟩
  | 52 => ⟨S4x512x512, .i32⟩
  | 53 => ⟨S4x512x512, .i1⟩
  | 54 => ⟨S_, .i32⟩
  | 55 => ⟨S4x512x512, .i32⟩
  | 56 => ⟨S4x512x512, .i32⟩
  | 57 => ⟨S4x512x512, .i32⟩
  | 58 => ⟨S_, .i32⟩
  | 59 => ⟨S4x512x512, .i32⟩
  | 60 => ⟨S4x512x512, .i1⟩
  | 61 => ⟨S_, .i32⟩
  | 62 => ⟨S4x512x512, .i32⟩
  | 63 => ⟨S4x512x512, .i32⟩
  | 64 => ⟨S4x512x512, .i32⟩
  | 65 => ⟨S4x512x512x1, .i32⟩
  | 66 => ⟨S4x512x512x1, .i32⟩
  | 67 => ⟨S4x512x512x1, .i32⟩
  | 68 => ⟨S4x512x512x3, .i32⟩
  | 69 => ⟨S8x3x4x512x512, .f32⟩
  | 70 => ⟨S4x512x512, .f32⟩
  | 71 => ⟨S4x512x512, .f32⟩
  | 72 => ⟨S1x1x4x512x512, .f32⟩
  | 73 => ⟨S8x3x4x512x512, .f32⟩
  | 74 => ⟨S8x3x4x512x512, .f32⟩
  | 75 => ⟨S8x3x4x512x512, .f32⟩
  | 76 => ⟨S4x8x3x512x512, .f32⟩
  | 77 => ⟨S4x3x512x512, .f32⟩
  | _ => ⟨S4x8x512x512, .f32⟩

abbrev hbmTy (i : Nat) : BufTy := match i / 128 with
  | 0 => hbmTy0_0 i
  | 1 => hbmTy0_1 i
  | 2 => hbmTy0_2 i
  | _ => ⟨S4x8x512x512, .f32⟩

abbrev bufTy : (tb : Table) → Fin (tcTables nBuf tb) → BufTy
  | .hbm, ⟨i, _⟩ => hbmTy i
  | .local _ .vmem, ⟨0, _⟩ => ⟨S1x8x128x512, .f32⟩
  | .local _ .vmem, ⟨1, _⟩ => ⟨S1x8x128x512, .f32⟩
  | .local _ .vmem, ⟨2, _⟩ => ⟨S1x8x128x512, .f32⟩
  | .local _ .vmem, ⟨3, _⟩ => ⟨S1x8x128x512, .f32⟩
  | .local _ .vmem, ⟨4, _⟩ => ⟨S1x8x3x128x512, .f32⟩
  | .local _ .vmem, ⟨5, _⟩ => ⟨S1x8x3x128x512, .f32⟩
  | .local _ .vmem, ⟨6, _⟩ => ⟨S1x3x128x512, .f32⟩
  | .local _ .vmem, ⟨7, _⟩ => ⟨S1x3x128x512, .f32⟩
  | _, _ => ⟨S4x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_c_4 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_c_6 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_7 : Ref sig .tc := ⟨.hbm, 59, rfl⟩
abbrev main_v26 : Ref sig .tc := ⟨.hbm, 60, rfl⟩
abbrev main_v27 : Ref sig .tc := ⟨.hbm, 61, rfl⟩
abbrev main_c_8 : Ref sig .tc := ⟨.hbm, 62, rfl⟩
abbrev main_v28 : Ref sig .tc := ⟨.hbm, 63, rfl⟩
abbrev main_v29 : Ref sig .tc := ⟨.hbm, 64, rfl⟩
abbrev main_c_9 : Ref sig .tc := ⟨.hbm, 65, rfl⟩
abbrev main_v30 : Ref sig .tc := ⟨.hbm, 66, rfl⟩
abbrev main_v31 : Ref sig .tc := ⟨.hbm, 67, rfl⟩
abbrev main_cst_10 : Ref sig .tc := ⟨.hbm, 68, rfl⟩
abbrev main_v32 : Ref sig .tc := ⟨.hbm, 69, rfl⟩
abbrev main_v33 : Ref sig .tc := ⟨.hbm, 70, rfl⟩
abbrev main_cst_11 : Ref sig .tc := ⟨.hbm, 71, rfl⟩
abbrev main_v34 : Ref sig .tc := ⟨.hbm, 72, rfl⟩
abbrev main_v35 : Ref sig .tc := ⟨.hbm, 73, rfl⟩
abbrev main_cst_12 : Ref sig .tc := ⟨.hbm, 74, rfl⟩
abbrev main_v36 : Ref sig .tc := ⟨.hbm, 75, rfl⟩
abbrev main_v37 : Ref sig .tc := ⟨.hbm, 76, rfl⟩
abbrev main_c_13 : Ref sig .tc := ⟨.hbm, 77, rfl⟩
abbrev main_v38 : Ref sig .tc := ⟨.hbm, 78, rfl⟩
abbrev main_v39 : Ref sig .tc := ⟨.hbm, 79, rfl⟩
abbrev main_c_14 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_c_15 : Ref sig .tc := ⟨.hbm, 84, rfl⟩
abbrev main_v43 : Ref sig .tc := ⟨.hbm, 85, rfl⟩
abbrev main_v44 : Ref sig .tc := ⟨.hbm, 86, rfl⟩
abbrev main_c_16 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_c_17 : Ref sig .tc := ⟨.hbm, 91, rfl⟩
abbrev main_v48 : Ref sig .tc := ⟨.hbm, 92, rfl⟩
abbrev main_v49 : Ref sig .tc := ⟨.hbm, 93, rfl⟩
abbrev main_c_18 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_19 : Ref sig .tc := ⟨.hbm, 108, rfl⟩
abbrev main_v63 : Ref sig .tc := ⟨.hbm, 109, rfl⟩
abbrev main_v64 : Ref sig .tc := ⟨.hbm, 110, rfl⟩
abbrev main_c_20 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_21 : Ref sig .tc := ⟨.hbm, 115, rfl⟩
abbrev main_v68 : Ref sig .tc := ⟨.hbm, 116, rfl⟩
abbrev main_v69 : Ref sig .tc := ⟨.hbm, 117, rfl⟩
abbrev main_c_22 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_23 : Ref sig .tc := ⟨.hbm, 122, rfl⟩
abbrev main_v73 : Ref sig .tc := ⟨.hbm, 123, rfl⟩
abbrev main_v74 : Ref sig .tc := ⟨.hbm, 124, rfl⟩
abbrev main_c_24 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_25 : Ref sig .tc := ⟨.hbm, 140, rfl⟩
abbrev main_v89 : Ref sig .tc := ⟨.hbm, 141, rfl⟩
abbrev main_v90 : Ref sig .tc := ⟨.hbm, 142, rfl⟩
abbrev main_c_26 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_c_27 : Ref sig .tc := ⟨.hbm, 147, rfl⟩
abbrev main_v94 : Ref sig .tc := ⟨.hbm, 148, rfl⟩
abbrev main_v95 : Ref sig .tc := ⟨.hbm, 149, rfl⟩
abbrev main_c_28 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_c_29 : Ref sig .tc := ⟨.hbm, 154, rfl⟩
abbrev main_v99 : Ref sig .tc := ⟨.hbm, 155, rfl⟩
abbrev main_v100 : Ref sig .tc := ⟨.hbm, 156, rfl⟩
abbrev main_c_30 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_31 : Ref sig .tc := ⟨.hbm, 172, rfl⟩
abbrev main_v115 : Ref sig .tc := ⟨.hbm, 173, rfl⟩
abbrev main_v116 : Ref sig .tc := ⟨.hbm, 174, rfl⟩
abbrev main_c_32 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_c_33 : Ref sig .tc := ⟨.hbm, 179, rfl⟩
abbrev main_v120 : Ref sig .tc := ⟨.hbm, 180, rfl⟩
abbrev main_v121 : Ref sig .tc := ⟨.hbm, 181, rfl⟩
abbrev main_c_34 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_c_35 : Ref sig .tc := ⟨.hbm, 186, rfl⟩
abbrev main_v125 : Ref sig .tc := ⟨.hbm, 187, rfl⟩
abbrev main_v126 : Ref sig .tc := ⟨.hbm, 188, rfl⟩
abbrev main_c_36 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_c_37 : Ref sig .tc := ⟨.hbm, 204, rfl⟩
abbrev main_v141 : Ref sig .tc := ⟨.hbm, 205, rfl⟩
abbrev main_v142 : Ref sig .tc := ⟨.hbm, 206, rfl⟩
abbrev main_c_38 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_c_39 : Ref sig .tc := ⟨.hbm, 211, rfl⟩
abbrev main_v146 : Ref sig .tc := ⟨.hbm, 212, rfl⟩
abbrev main_v147 : Ref sig .tc := ⟨.hbm, 213, rfl⟩
abbrev main_c_40 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_c_41 : Ref sig .tc := ⟨.hbm, 218, rfl⟩
abbrev main_v151 : Ref sig .tc := ⟨.hbm, 219, rfl⟩
abbrev main_v152 : Ref sig .tc := ⟨.hbm, 220, rfl⟩
abbrev main_c_42 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_c_43 : Ref sig .tc := ⟨.hbm, 236, rfl⟩
abbrev main_v167 : Ref sig .tc := ⟨.hbm, 237, rfl⟩
abbrev main_v168 : Ref sig .tc := ⟨.hbm, 238, rfl⟩
abbrev main_c_44 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_c_45 : Ref sig .tc := ⟨.hbm, 243, rfl⟩
abbrev main_v172 : Ref sig .tc := ⟨.hbm, 244, rfl⟩
abbrev main_v173 : Ref sig .tc := ⟨.hbm, 245, rfl⟩
abbrev main_c_46 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_c_47 : Ref sig .tc := ⟨.hbm, 250, rfl⟩
abbrev main_v177 : Ref sig .tc := ⟨.hbm, 251, rfl⟩
abbrev main_v178 : Ref sig .tc := ⟨.hbm, 252, rfl⟩
abbrev main_c_48 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_c_49 : Ref sig .tc := ⟨.hbm, 268, rfl⟩
abbrev main_v193 : Ref sig .tc := ⟨.hbm, 269, rfl⟩
abbrev main_v194 : Ref sig .tc := ⟨.hbm, 270, rfl⟩
abbrev main_c_50 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_c_51 : Ref sig .tc := ⟨.hbm, 275, rfl⟩
abbrev main_v198 : Ref sig .tc := ⟨.hbm, 276, rfl⟩
abbrev main_v199 : Ref sig .tc := ⟨.hbm, 277, rfl⟩
abbrev main_c_52 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_c_53 : Ref sig .tc := ⟨.hbm, 282, rfl⟩
abbrev main_v203 : Ref sig .tc := ⟨.hbm, 283, rfl⟩
abbrev main_v204 : Ref sig .tc := ⟨.hbm, 284, rfl⟩
abbrev main_c_54 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_c_55 : Ref sig .tc := ⟨.hbm, 300, rfl⟩
abbrev main_v219 : Ref sig .tc := ⟨.hbm, 301, rfl⟩
abbrev main_v220 : Ref sig .tc := ⟨.hbm, 302, rfl⟩
abbrev main_c_56 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_c_57 : Ref sig .tc := ⟨.hbm, 307, rfl⟩
abbrev main_v224 : Ref sig .tc := ⟨.hbm, 308, rfl⟩
abbrev main_v225 : Ref sig .tc := ⟨.hbm, 309, rfl⟩
abbrev main_c_58 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_c_59 : Ref sig .tc := ⟨.hbm, 314, rfl⟩
abbrev main_v229 : Ref sig .tc := ⟨.hbm, 315, rfl⟩
abbrev main_v230 : Ref sig .tc := ⟨.hbm, 316, rfl⟩
abbrev main_c_60 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x3x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S107811x8_S8x107811_1_0 : S107811x8.Transposes [1, 0] S8x107811
  shapeCasts_S8x107811_S8x3x33x33x33 : S8x107811.ShapeCasts S8x3x33x33x33
  bcast_S_S4x3x512x512 : S_.BroadcastsInDim S4x3x512x512 (![] : Fin 0 → Fin S4x3x512x512.rank)
  slices_S4x3x512x512_S4x1x512x512_0_0_0_0 : S4x3x512x512.Slices ![0, 0, 0, 0] S4x1x512x512
  shapeCasts_S4x1x512x512_S4x512x512 : S4x1x512x512.ShapeCasts S4x512x512
  slices_S4x3x512x512_S4x1x512x512_0_1_0_0 : S4x3x512x512.Slices ![0, 1, 0, 0] S4x1x512x512
  slices_S4x3x512x512_S4x1x512x512_0_2_0_0 : S4x3x512x512.Slices ![0, 2, 0, 0] S4x1x512x512
  bcast_S_S4x512x512 : S_.BroadcastsInDim S4x512x512 (![] : Fin 0 → Fin S4x512x512.rank)
  bcast_S4x512x512_S4x512x512x1_0_1_2 : S4x512x512.BroadcastsInDim S4x512x512x1 (![0, 1, 2] : Fin 3 → Fin S4x512x512x1.rank)
  concatenates_S4x512x512x1_S4x512x512x1_S4x512x512x1_S4x512x512x3_d3 : Shape.Concatenates [S4x512x512x1, S4x512x512x1, S4x512x512x1] S4x512x512x3 3
  bcast_S4x512x512_S1x1x4x512x512_2_3_4 : S4x512x512.BroadcastsInDim S1x1x4x512x512 (![2, 3, 4] : Fin 3 → Fin S1x1x4x512x512.rank)
  bcast_S1x1x4x512x512_S8x3x4x512x512_0_1_2_3_4 : S1x1x4x512x512.BroadcastsInDim S8x3x4x512x512 (![0, 1, 2, 3, 4] : Fin 5 → Fin S8x3x4x512x512.rank)
  transposes_S8x3x4x512x512_S4x8x3x512x512_2_0_1_3_4 : S8x3x4x512x512.Transposes [2, 0, 1, 3, 4] S4x8x3x512x512
  inb_S1x8x128x512_S1x8x128x512_0_0_0_0 : ∀ a, (![0, 0, 0, 0] : Fin 4 → Nat) a + S1x8x128x512.size a ≤ S1x8x128x512.size a
  h_S1x8x128x512 : 0 < S1x8x128x512.numel
  shapeCasts_S1x8x128x512_S1x8x1x128x512 : S1x8x128x512.ShapeCasts S1x8x1x128x512
  inb_S1x8x3x128x512_S1x8x3x128x512_0_0_0_0_0 : ∀ a, (![0, 0, 0, 0, 0] : Fin 5 → Nat) a + S1x8x3x128x512.size a ≤ S1x8x3x128x512.size a
  h_S1x8x3x128x512 : 0 < S1x8x3x128x512.numel
  shapeCasts_S1x8x3x128x512_S1x8x3x128x512 : S1x8x3x128x512.ShapeCasts S1x8x3x128x512
  broadcasts_S1x8x1x128x512_S1x8x3x128x512 : S1x8x1x128x512.Broadcasts S1x8x3x128x512
  reduces_S1x8x3x128x512_S1x3x128x512 : S1x8x3x128x512.Reduces [1] S1x3x128x512
  inb_S1x3x128x512_S1x3x128x512_0_0_0_0 : ∀ a, (![0, 0, 0, 0] : Fin 4 → Nat) a + S1x3x128x512.size a ≤ S1x3x128x512.size a
  h_S1x3x128x512 : 0 < S1x3x128x512.numel
  gather_S8x3x33x33x33_S4x512x512x3_S8x3x4x512x512_01_234_n_n_234_3_83111_wf : GatherDims.WF S8x3x33x33x33 S4x512x512x3 S8x3x4x512x512 [0, 1] [2, 3, 4] [] [2, 3, 4] [] 3 ![8, 3, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x128x512.size a ≤ S4x8x512x512.size a
  hwx0_0 : ∀ i : grid0.Coords, EltTy.bits .f32 = 32 ∨ (Rect.block (s := S4x8x512x512) S1x8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128x512.size a ≤ S4x8x512x512.size a
  hwx0_1 : ∀ i : grid0.Coords, EltTy.bits .f32 = 32 ∨ (Rect.block (s := S4x8x512x512) S1x8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x3x128x512.size a ≤ S4x8x3x512x512.size a
  hwx0_2 : ∀ i : grid0.Coords, EltTy.bits .f32 = 32 ∨ (Rect.block (s := S4x8x3x512x512) S1x8x3x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x128x512.size a ≤ S4x3x512x512.size a
  hwx0_3 : ∀ i : grid0.Coords, EltTy.bits .f32 = 32 ∨ (Rect.block (s := S4x3x512x512) S1x3x128x512.size (cc0_transform_3 i) (hinb0_3 i)).WholeWords (EltTy.packing .f32)

variable [Facts₀]

def gather_S8x3x33x33x33_S4x512x512x3_S8x3x4x512x512_01_234_n_n_234_3_83111 : GatherDims S8x3x33x33x33 S4x512x512x3 S8x3x4x512x512 where
  offsetDims := [0, 1]
  collapsedSliceDims := [2, 3, 4]
  operandBatchingDims := []
  startIndicesBatchingDims := []
  startIndexMap := [2, 3, 4]
  indexVectorDim := 3
  sliceSizes := ![8, 3, 1, 1, 1]
  wf := gather_S8x3x33x33x33_S4x512x512x3_S8x3x4x512x512_01_234_n_n_234_3_83111_wf

abbrev win0_0 : Pipeline.Window sig grid0 :=
  Pipeline.Window.ofSpec (Memref.whole main_arg0) S1x8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v245) S1x8x3x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v246) S1x3x128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8x512x512 : Shape := ⟨4, ![4, 8, 512, 512]⟩
abbrev S4x3x512x512 : Shape := ⟨4, ![4, 3, 512, 512]⟩
abbrev S107811x8 : Shape := ⟨2, ![107811, 8]⟩
abbrev S8x107811 : Shape := ⟨2, ![8, 107811]⟩
abbrev S8x3x33x33x33 : Shape := ⟨5, ![8, 3, 33, 33, 33]⟩
abbrev S_ : Shape := ⟨0, ![]⟩
abbrev S4x1x512x512 : Shape := ⟨4, ![4, 1, 512, 512]⟩
abbrev S4x512x512 : Shape := ⟨3, ![4, 512, 512]⟩
abbrev S4x512x512x1 : Shape := ⟨4, ![4, 512, 512, 1]⟩
abbrev S4x512x512x3 : Shape := ⟨4, ![4, 512, 512, 3]⟩
abbrev S8x3x4x512x512 : Shape := ⟨5, ![8, 3, 4, 512, 512]⟩
abbrev S1x1x4x512x512 : Shape := ⟨5, ![1, 1, 4, 512, 512]⟩
abbrev S4x8x3x512x512 : Shape := ⟨5, ![4, 8, 3, 512, 512]⟩
abbrev S4x8x1x512x512 : Shape := ⟨5, ![4, 8, 1, 512, 512]⟩

abbrev nBuf : Space → Nat
  | .hbm => 339
  | .vmem => 0
  | .smem => 0
  | _ => 0

abbrev hbmTy0_0 (i : Nat) : BufTy := match i % 128 with
  | 0 => ⟨S4x8x512x512, .f32⟩
  | 1 => ⟨S4x8x512x512, .f32⟩
  | 2 => ⟨S4x3x512x512, .f32⟩
  | 3 => ⟨S107811x8, .f32⟩
  | 4 => ⟨S8x107811, .f32⟩
  | 5 => ⟨S8x3x33x33x33, .f32⟩
  | 6 => ⟨S_, .f32⟩
  | 7 => ⟨S4x3x512x512, .f32⟩
  | 8 => ⟨S4x3x512x512, .f32⟩
  | 9 => ⟨S_, .f32⟩
  | 10 => ⟨S_, .f32⟩
  | 11 => ⟨S_, .f32⟩
  | 12 => ⟨S4x3x512x512, .f32⟩
  | 13 => ⟨S4x3x512x512, .f32⟩
  | 14 => ⟨S_, .f32⟩
  | 15 => ⟨S4x3x512x512, .f32⟩
  | 16 => ⟨S4x3x512x512, .f32⟩
  | 17 => ⟨S4x1x512x512, .f32⟩
  | 18 => ⟨S4x512x512, .f32⟩
  | 19 => ⟨S4x1x512x512, .f32⟩
  | 20 => ⟨S4x512x512, .f32⟩
  | 21 => ⟨S4x1x512x512, .f32⟩
  | 22 => ⟨S4x512x512, .f32⟩
  | 23 => ⟨S4x512x512, .f32⟩
  | 24 => ⟨S4x512x512, .i32⟩
  | 25 => ⟨S_, .i32⟩
  | 26 => ⟨S_, .i32⟩
  | 27 => ⟨S_, .i32⟩
  | 28 => ⟨S4x512x512, .i32⟩
  | 29 => ⟨S4x512x512, .i32⟩
  | 30 => ⟨S_, .i32⟩
  | 31 => ⟨S4x512x512, .i32⟩
  | 32 => ⟨S4x512x512, .i32⟩
  | 33 => ⟨S4x512x512, .f32⟩
  | 34 => ⟨S4x512x512, .f32⟩
  | 35 => ⟨S4x512x512, .f32⟩
  | 36 => ⟨S4x512x512, .i32⟩
  | 37 => ⟨S_, .i32⟩
  | 38 => ⟨S_, .i32⟩
  | 39 => ⟨S_, .i32⟩
  | 40 => ⟨S4x512x512, .i32⟩
  | 41 => ⟨S4x512x512, .i32⟩
  | 42 => ⟨S_, .i32⟩
  | 43 => ⟨S4x512x512, .i32⟩
  | 44 => ⟨S4x512x512, .i32⟩
  | 45 => ⟨S4x512x512, .f32⟩
  | 46 => ⟨S4x512x512, .f32⟩
  | 47 => ⟨S4x512x512, .f32⟩
  | 48 => ⟨S4x512x512, .i32⟩
  | 49 => ⟨S_, .i32⟩
  | 50 => ⟨S_, .i32⟩
  | 51 => ⟨S_, .i32⟩
  | 52 => ⟨S4x512x512, .i32⟩
  | 53 => ⟨S4x512x512, .i32⟩
  | 54 => ⟨S_, .i32⟩
  | 55 => ⟨S4x512x512, .i32⟩
  | 56 => ⟨S4x512x512, .i32⟩
  | 57 => ⟨S4x512x512, .f32⟩
  | 58 => ⟨S4x512x512, .f32⟩
  | 59 => ⟨S_, .i32⟩
  | 60 => ⟨S4x512x512, .i32⟩
  | 61 => ⟨S4x512x512, .i32⟩
  | 62 => ⟨S_, .i32⟩
  | 63 => ⟨S4x512x512, .i32⟩
  | 64 => ⟨S4x512x512, .i32⟩
  | 65 => ⟨S_, .i32⟩
  | 66 => ⟨S4x512x512, .i32⟩
  | 67 => ⟨S4x512x512, .i32⟩
  | 68 => ⟨S_, .f32⟩
  | 69 => ⟨S4x512x512, .f32⟩
  | 70 => ⟨S4x512x512, .f32⟩
  | 71 => ⟨S_, .f32⟩
  | 72 => ⟨S4x512x512, .f32⟩
  | 73 => ⟨S4x512x512, .f32⟩
  | 74 => ⟨S_, .f32⟩
  | 75 => ⟨S4x512x512, .f32⟩
  | 76 => ⟨S4x512x512, .f32⟩
  | 77 => ⟨S_, .i32⟩
  | 78 => ⟨S4x512x512, .i32⟩
  | 79 => ⟨S4x512x512, .i1⟩
  | 80 => ⟨S_, .i32⟩
  | 81 => ⟨S4x512x512, .i32⟩
  | 82 => ⟨S4x512x512, .i32⟩
  | 83 => ⟨S4x512x512, .i32⟩
  | 84 => ⟨S_, .i32⟩
  | 85 => ⟨S4x512x512, .i32⟩
  | 86 => ⟨S4x512x512, .i1⟩
  | 87 => ⟨S_, .i32⟩
  | 88 => ⟨S4x512x512, .i32⟩
  | 89 => ⟨S4x512x512, .i32⟩
  | 90 => ⟨S4x512x512, .i32⟩
  | 91 => ⟨S_, .i32⟩
  | 92 => ⟨S4x512x512, .i32⟩
  | 93 => ⟨S4x512x512, .i1⟩
  | 94 => ⟨S_, .i32⟩
  | 95 => ⟨S4x512x512, .i32⟩
  | 96 => ⟨S4x512x512, .i32⟩
  | 97 => ⟨S4x512x512, .i32⟩
  | 98 => ⟨S4x512x512x1, .i32⟩
  | 99 => ⟨S4x512x512x1, .i32⟩
  | 100 => ⟨S4x512x512x1, .i32⟩
  | 101 => ⟨S4x512x512x3, .i32⟩
  | 102 => ⟨S8x3x4x512x512, .f32⟩
  | 103 => ⟨S4x512x512, .f32⟩
  | 104 => ⟨S4x512x512, .f32⟩
  | 105 => ⟨S1x1x4x512x512, .f32⟩
  | 106 => ⟨S8x3x4x512x512, .f32⟩
  | 107 => ⟨S8x3x4x512x512, .f32⟩
  | 108 => ⟨S_, .i32⟩
  | 109 => ⟨S4x512x512, .i32⟩
  | 110 => ⟨S4x512x512, .i1⟩
  | 111 => ⟨S_, .i32⟩
  | 112 => ⟨S4x512x512, .i32⟩
  | 113 => ⟨S4x512x512, .i32⟩
  | 114 => ⟨S4x512x512, .i32⟩
  | 115 => ⟨S_, .i32⟩
  | 116 => ⟨S4x512x512, .i32⟩
  | 117 => ⟨S4x512x512, .i1⟩
  | 118 => ⟨S_, .i32⟩
  | 119 => ⟨S4x512x512, .i32⟩
  | 120 => ⟨S4x512x512, .i32⟩
  | 121 => ⟨S4x512x512, .i32⟩
  | 122 => ⟨S_, .i32⟩
  | 123 => ⟨S4x512x512, .i32⟩
  | 124 => ⟨S4x512x512, .i1⟩
  | 125 => ⟨S_, .i32⟩
  | 126 => ⟨S4x512x512, .i32⟩
  | 127 => ⟨S4x512x512, .i32⟩
  | _ => ⟨S4x8x512x512, .f32⟩

abbrev hbmTy0_1 (i : Nat) : BufTy := match i % 128 with
  | 0 => ⟨S4x512x512, .i32⟩
  | 1 => ⟨S4x512x512x1, .i32⟩
  | 2 => ⟨S4x512x512x1, .i32⟩
  | 3 => ⟨S4x512x512x1, .i32⟩
  | 4 => ⟨S4x512x512x3, .i32⟩
  | 5 => ⟨S8x3x4x512x512, .f32⟩
  | 6 => ⟨S4x512x512, .f32⟩
  | 7 => ⟨S4x512x512, .f32⟩
  | 8 => ⟨S1x1x4x512x512, .f32⟩
  | 9 => ⟨S8x3x4x512x512, .f32⟩
  | 10 => ⟨S8x3x4x512x512, .f32⟩
  | 11 => ⟨S8x3x4x512x512, .f32⟩
  | 12 => ⟨S_, .i32⟩
  | 13 => ⟨S4x512x512, .i32⟩
  | 14 => ⟨S4x512x512, .i1⟩
  | 15 => ⟨S_, .i32⟩
  | 16 => ⟨S4x512x512, .i32⟩
  | 17 => ⟨S4x512x512, .i32⟩
  | 18 => ⟨S4x512x512, .i32⟩
  | 19 => ⟨S_, .i32⟩
  | 20 => ⟨S4x512x512, .i32⟩
  | 21 => ⟨S4x512x512, .i1⟩
  | 22 => ⟨S_, .i32⟩
  | 23 => ⟨S4x512x512, .i32⟩
  | 24 => ⟨S4x512x512, .i32⟩
  | 25 => ⟨S4x512x512, .i32⟩
  | 26 => ⟨S_, .i32⟩
  | 27 => ⟨S4x512x512, .i32⟩
  | 28 => ⟨S4x512x512, .i1⟩
  | 29 => ⟨S_, .i32⟩
  | 30 => ⟨S4x512x512, .i32⟩
  | 31 => ⟨S4x512x512, .i32⟩
  | 32 => ⟨S4x512x512, .i32⟩
  | 33 => ⟨S4x512x512x1, .i32⟩
  | 34 => ⟨S4x512x512x1, .i32⟩
  | 35 => ⟨S4x512x512x1, .i32⟩
  | 36 => ⟨S4x512x512x3, .i32⟩
  | 37 => ⟨S8x3x4x512x512, .f32⟩
  | 38 => ⟨S4x512x512, .f32⟩
  | 39 => ⟨S4x512x512, .f32⟩
  | 40 => ⟨S1x1x4x512x512, .f32⟩
  | 41 => ⟨S8x3x4x512x512, .f32⟩
  | 42 => ⟨S8x3x4x512x512, .f32⟩
  | 43 => ⟨S8x3x4x512x512, .f32⟩
  | 44 => ⟨S_, .i32⟩
  | 45 => ⟨S4x512x512, .i32⟩
  | 46 => ⟨S4x512x512, .i1⟩
  | 47 => ⟨S_, .i32⟩
  | 48 => ⟨S4x512x512, .i32⟩
  | 49 => ⟨S4x512x512, .i32⟩
  | 50 => ⟨S4x512x512, .i32⟩
  | 51 => ⟨S_, .i32⟩
  | 52 => ⟨S4x512x512, .i32⟩
  | 53 => ⟨S4x512x512, .i1⟩
  | 54 => ⟨S_, .i32⟩
  | 55 => ⟨S4x512x512, .i32⟩
  | 56 => ⟨S4x512x512, .i32⟩
  | 57 => ⟨S4x512x512, .i32⟩
  | 58 => ⟨S_, .i32⟩
  | 59 => ⟨S4x512x512, .i32⟩
  | 60 => ⟨S4x512x512, .i1⟩
  | 61 => ⟨S_, .i32⟩
  | 62 => ⟨S4x512x512, .i32⟩
  | 63 => ⟨S4x512x512, .i32⟩
  | 64 => ⟨S4x512x512, .i32⟩
  | 65 => ⟨S4x512x512x1, .i32⟩
  | 66 => ⟨S4x512x512x1, .i32⟩
  | 67 => ⟨S4x512x512x1, .i32⟩
  | 68 => ⟨S4x512x512x3, .i32⟩
  | 69 => ⟨S8x3x4x512x512, .f32⟩
  | 70 => ⟨S4x512x512, .f32⟩
  | 71 => ⟨S4x512x512, .f32⟩
  | 72 => ⟨S1x1x4x512x512, .f32⟩
  | 73 => ⟨S8x3x4x512x512, .f32⟩
  | 74 => ⟨S8x3x4x512x512, .f32⟩
  | 75 => ⟨S8x3x4x512x512, .f32⟩
  | 76 => ⟨S_, .i32⟩
  | 77 => ⟨S4x512x512, .i32⟩
  | 78 => ⟨S4x512x512, .i1⟩
  | 79 => ⟨S_, .i32⟩
  | 80 => ⟨S4x512x512, .i32⟩
  | 81 => ⟨S4x512x512, .i32⟩
  | 82 => ⟨S4x512x512, .i32⟩
  | 83 => ⟨S_, .i32⟩
  | 84 => ⟨S4x512x512, .i32⟩
  | 85 => ⟨S4x512x512, .i1⟩
  | 86 => ⟨S_, .i32⟩
  | 87 => ⟨S4x512x512, .i32⟩
  | 88 => ⟨S4x512x512, .i32⟩
  | 89 => ⟨S4x512x512, .i32⟩
  | 90 => ⟨S_, .i32⟩
  | 91 => ⟨S4x512x512, .i32⟩
  | 92 => ⟨S4x512x512, .i1⟩
  | 93 => ⟨S_, .i32⟩
  | 94 => ⟨S4x512x512, .i32⟩
  | 95 => ⟨S4x512x512, .i32⟩
  | 96 => ⟨S4x512x512, .i32⟩
  | 97 => ⟨S4x512x512x1, .i32⟩
  | 98 => ⟨S4x512x512x1, .i32⟩
  | 99 => ⟨S4x512x512x1, .i32⟩
  | 100 => ⟨S4x512x512x3, .i32⟩
  | 101 => ⟨S8x3x4x512x512, .f32⟩
  | 102 => ⟨S4x512x512, .f32⟩
  | 103 => ⟨S4x512x512, .f32⟩
  | 104 => ⟨S1x1x4x512x512, .f32⟩
  | 105 => ⟨S8x3x4x512x512, .f32⟩
  | 106 => ⟨S8x3x4x512x512, .f32⟩
  | 107 => ⟨S8x3x4x512x512, .f32⟩
  | 108 => ⟨S_, .i32⟩
  | 109 => ⟨S4x512x512, .i32⟩
  | 110 => ⟨S4x512x512, .i1⟩
  | 111 => ⟨S_, .i32⟩
  | 112 => ⟨S4x512x512, .i32⟩
  | 113 => ⟨S4x512x512, .i32⟩
  | 114 => ⟨S4x512x512, .i32⟩
  | 115 => ⟨S_, .i32⟩
  | 116 => ⟨S4x512x512, .i32⟩
  | 117 => ⟨S4x512x512, .i1⟩
  | 118 => ⟨S_, .i32⟩
  | 119 => ⟨S4x512x512, .i32⟩
  | 120 => ⟨S4x512x512, .i32⟩
  | 121 => ⟨S4x512x512, .i32⟩
  | 122 => ⟨S_, .i32⟩
  | 123 => ⟨S4x512x512, .i32⟩
  | 124 => ⟨S4x512x512, .i1⟩
  | 125 => ⟨S_, .i32⟩
  | 126 => ⟨S4x512x512, .i32⟩
  | 127 => ⟨S4x512x512, .i32⟩
  | _ => ⟨S4x8x512x512, .f32⟩

abbrev hbmTy0_2 (i : Nat) : BufTy := match i % 128 with
  | 0 => ⟨S4x512x512, .i32⟩
  | 1 => ⟨S4x512x512x1, .i32⟩
  | 2 => ⟨S4x512x512x1, .i32⟩
  | 3 => ⟨S4x512x512x1, .i32⟩
  | 4 => ⟨S4x512x512x3, .i32⟩
  | 5 => ⟨S8x3x4x512x512, .f32⟩
  | 6 => ⟨S4x512x512, .f32⟩
  | 7 => ⟨S4x512x512, .f32⟩
  | 8 => ⟨S1x1x4x512x512, .f32⟩
  | 9 => ⟨S8x3x4x512x512, .f32⟩
  | 10 => ⟨S8x3x4x512x512, .f32⟩
  | 11 => ⟨S8x3x4x512x512, .f32⟩
  | 12 => ⟨S_, .i32⟩
  | 13 => ⟨S4x512x512, .i32⟩
  | 14 => ⟨S4x512x512, .i1⟩
  | 15 => ⟨S_, .i32⟩
  | 16 => ⟨S4x512x512, .i32⟩
  | 17 => ⟨S4x512x512, .i32⟩
  | 18 => ⟨S4x512x512, .i32⟩
  | 19 => ⟨S_, .i32⟩
  | 20 => ⟨S4x512x512, .i32⟩
  | 21 => ⟨S4x512x512, .i1⟩
  | 22 => ⟨S_, .i32⟩
  | 23 => ⟨S4x512x512, .i32⟩
  | 24 => ⟨S4x512x512, .i32⟩
  | 25 => ⟨S4x512x512, .i32⟩
  | 26 => ⟨S_, .i32⟩
  | 27 => ⟨S4x512x512, .i32⟩
  | 28 => ⟨S4x512x512, .i1⟩
  | 29 => ⟨S_, .i32⟩
  | 30 => ⟨S4x512x512, .i32⟩
  | 31 => ⟨S4x512x512, .i32⟩
  | 32 => ⟨S4x512x512, .i32⟩
  | 33 => ⟨S4x512x512x1, .i32⟩
  | 34 => ⟨S4x512x512x1, .i32⟩
  | 35 => ⟨S4x512x512x1, .i32⟩
  | 36 => ⟨S4x512x512x3, .i32⟩
  | 37 => ⟨S8x3x4x512x512, .f32⟩
  | 38 => ⟨S4x512x512, .f32⟩
  | 39 => ⟨S4x512x512, .f32⟩
  | 40 => ⟨S1x1x4x512x512, .f32⟩
  | 41 => ⟨S8x3x4x512x512, .f32⟩
  | 42 => ⟨S8x3x4x512x512, .f32⟩
  | 43 => ⟨S8x3x4x512x512, .f32⟩
  | 44 => ⟨S_, .i32⟩
  | 45 => ⟨S4x512x512, .i32⟩
  | 46 => ⟨S4x512x512, .i1⟩
  | 47 => ⟨S_, .i32⟩
  | 48 => ⟨S4x512x512, .i32⟩
  | 49 => ⟨S4x512x512, .i32⟩
  | 50 => ⟨S4x512x512, .i32⟩
  | 51 => ⟨S_, .i32⟩
  | 52 => ⟨S4x512x512, .i32⟩
  | 53 => ⟨S4x512x512, .i1⟩
  | 54 => ⟨S_, .i32⟩
  | 55 => ⟨S4x512x512, .i32⟩
  | 56 => ⟨S4x512x512, .i32⟩
  | 57 => ⟨S4x512x512, .i32⟩
  | 58 => ⟨S_, .i32⟩
  | 59 => ⟨S4x512x512, .i32⟩
  | 60 => ⟨S4x512x512, .i1⟩
  | 61 => ⟨S_, .i32⟩
  | 62 => ⟨S4x512x512, .i32⟩
  | 63 => ⟨S4x512x512, .i32⟩
  | 64 => ⟨S4x512x512, .i32⟩
  | 65 => ⟨S4x512x512x1, .i32⟩
  | 66 => ⟨S4x512x512x1, .i32⟩
  | 67 => ⟨S4x512x512x1, .i32⟩
  | 68 => ⟨S4x512x512x3, .i32⟩
  | 69 => ⟨S8x3x4x512x512, .f32⟩
  | 70 => ⟨S4x512x512, .f32⟩
  | 71 => ⟨S4x512x512, .f32⟩
  | 72 => ⟨S1x1x4x512x512, .f32⟩
  | 73 => ⟨S8x3x4x512x512, .f32⟩
  | 74 => ⟨S8x3x4x512x512, .f32⟩
  | 75 => ⟨S8x3x4x512x512, .f32⟩
  | 76 => ⟨S4x8x3x512x512, .f32⟩
  | 77 => ⟨S4x8x512x512, .f32⟩
  | 78 => ⟨S4x8x1x512x512, .f32⟩
  | 79 => ⟨S4x8x3x512x512, .f32⟩
  | 80 => ⟨S4x8x3x512x512, .f32⟩
  | 81 => ⟨S_, .f32⟩
  | 82 => ⟨S4x3x512x512, .f32⟩
  | _ => ⟨S4x8x512x512, .f32⟩

abbrev hbmTy (i : Nat) : BufTy := match i / 128 with
  | 0 => hbmTy0_0 i
  | 1 => hbmTy0_1 i
  | 2 => hbmTy0_2 i
  | _ => ⟨S4x8x512x512, .f32⟩

abbrev bufTy : (tb : Table) → Fin (tcTables nBuf tb) → BufTy
  | .hbm, ⟨i, _⟩ => hbmTy i
  | _, _ => ⟨S4x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_c_4 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_c_6 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_7 : Ref sig .tc := ⟨.hbm, 59, rfl⟩
abbrev main_v26 : Ref sig .tc := ⟨.hbm, 60, rfl⟩
abbrev main_v27 : Ref sig .tc := ⟨.hbm, 61, rfl⟩
abbrev main_c_8 : Ref sig .tc := ⟨.hbm, 62, rfl⟩
abbrev main_v28 : Ref sig .tc := ⟨.hbm, 63, rfl⟩
abbrev main_v29 : Ref sig .tc := ⟨.hbm, 64, rfl⟩
abbrev main_c_9 : Ref sig .tc := ⟨.hbm, 65, rfl⟩
abbrev main_v30 : Ref sig .tc := ⟨.hbm, 66, rfl⟩
abbrev main_v31 : Ref sig .tc := ⟨.hbm, 67, rfl⟩
abbrev main_cst_10 : Ref sig .tc := ⟨.hbm, 68, rfl⟩
abbrev main_v32 : Ref sig .tc := ⟨.hbm, 69, rfl⟩
abbrev main_v33 : Ref sig .tc := ⟨.hbm, 70, rfl⟩
abbrev main_cst_11 : Ref sig .tc := ⟨.hbm, 71, rfl⟩
abbrev main_v34 : Ref sig .tc := ⟨.hbm, 72, rfl⟩
abbrev main_v35 : Ref sig .tc := ⟨.hbm, 73, rfl⟩
abbrev main_cst_12 : Ref sig .tc := ⟨.hbm, 74, rfl⟩
abbrev main_v36 : Ref sig .tc := ⟨.hbm, 75, rfl⟩
abbrev main_v37 : Ref sig .tc := ⟨.hbm, 76, rfl⟩
abbrev main_c_13 : Ref sig .tc := ⟨.hbm, 77, rfl⟩
abbrev main_v38 : Ref sig .tc := ⟨.hbm, 78, rfl⟩
abbrev main_v39 : Ref sig .tc := ⟨.hbm, 79, rfl⟩
abbrev main_c_14 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_c_15 : Ref sig .tc := ⟨.hbm, 84, rfl⟩
abbrev main_v43 : Ref sig .tc := ⟨.hbm, 85, rfl⟩
abbrev main_v44 : Ref sig .tc := ⟨.hbm, 86, rfl⟩
abbrev main_c_16 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_c_17 : Ref sig .tc := ⟨.hbm, 91, rfl⟩
abbrev main_v48 : Ref sig .tc := ⟨.hbm, 92, rfl⟩
abbrev main_v49 : Ref sig .tc := ⟨.hbm, 93, rfl⟩
abbrev main_c_18 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_19 : Ref sig .tc := ⟨.hbm, 108, rfl⟩
abbrev main_v63 : Ref sig .tc := ⟨.hbm, 109, rfl⟩
abbrev main_v64 : Ref sig .tc := ⟨.hbm, 110, rfl⟩
abbrev main_c_20 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_21 : Ref sig .tc := ⟨.hbm, 115, rfl⟩
abbrev main_v68 : Ref sig .tc := ⟨.hbm, 116, rfl⟩
abbrev main_v69 : Ref sig .tc := ⟨.hbm, 117, rfl⟩
abbrev main_c_22 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_23 : Ref sig .tc := ⟨.hbm, 122, rfl⟩
abbrev main_v73 : Ref sig .tc := ⟨.hbm, 123, rfl⟩
abbrev main_v74 : Ref sig .tc := ⟨.hbm, 124, rfl⟩
abbrev main_c_24 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_25 : Ref sig .tc := ⟨.hbm, 140, rfl⟩
abbrev main_v89 : Ref sig .tc := ⟨.hbm, 141, rfl⟩
abbrev main_v90 : Ref sig .tc := ⟨.hbm, 142, rfl⟩
abbrev main_c_26 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_c_27 : Ref sig .tc := ⟨.hbm, 147, rfl⟩
abbrev main_v94 : Ref sig .tc := ⟨.hbm, 148, rfl⟩
abbrev main_v95 : Ref sig .tc := ⟨.hbm, 149, rfl⟩
abbrev main_c_28 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_c_29 : Ref sig .tc := ⟨.hbm, 154, rfl⟩
abbrev main_v99 : Ref sig .tc := ⟨.hbm, 155, rfl⟩
abbrev main_v100 : Ref sig .tc := ⟨.hbm, 156, rfl⟩
abbrev main_c_30 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_31 : Ref sig .tc := ⟨.hbm, 172, rfl⟩
abbrev main_v115 : Ref sig .tc := ⟨.hbm, 173, rfl⟩
abbrev main_v116 : Ref sig .tc := ⟨.hbm, 174, rfl⟩
abbrev main_c_32 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_c_33 : Ref sig .tc := ⟨.hbm, 179, rfl⟩
abbrev main_v120 : Ref sig .tc := ⟨.hbm, 180, rfl⟩
abbrev main_v121 : Ref sig .tc := ⟨.hbm, 181, rfl⟩
abbrev main_c_34 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_c_35 : Ref sig .tc := ⟨.hbm, 186, rfl⟩
abbrev main_v125 : Ref sig .tc := ⟨.hbm, 187, rfl⟩
abbrev main_v126 : Ref sig .tc := ⟨.hbm, 188, rfl⟩
abbrev main_c_36 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_c_37 : Ref sig .tc := ⟨.hbm, 204, rfl⟩
abbrev main_v141 : Ref sig .tc := ⟨.hbm, 205, rfl⟩
abbrev main_v142 : Ref sig .tc := ⟨.hbm, 206, rfl⟩
abbrev main_c_38 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_c_39 : Ref sig .tc := ⟨.hbm, 211, rfl⟩
abbrev main_v146 : Ref sig .tc := ⟨.hbm, 212, rfl⟩
abbrev main_v147 : Ref sig .tc := ⟨.hbm, 213, rfl⟩
abbrev main_c_40 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_c_41 : Ref sig .tc := ⟨.hbm, 218, rfl⟩
abbrev main_v151 : Ref sig .tc := ⟨.hbm, 219, rfl⟩
abbrev main_v152 : Ref sig .tc := ⟨.hbm, 220, rfl⟩
abbrev main_c_42 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_c_43 : Ref sig .tc := ⟨.hbm, 236, rfl⟩
abbrev main_v167 : Ref sig .tc := ⟨.hbm, 237, rfl⟩
abbrev main_v168 : Ref sig .tc := ⟨.hbm, 238, rfl⟩
abbrev main_c_44 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_c_45 : Ref sig .tc := ⟨.hbm, 243, rfl⟩
abbrev main_v172 : Ref sig .tc := ⟨.hbm, 244, rfl⟩
abbrev main_v173 : Ref sig .tc := ⟨.hbm, 245, rfl⟩
abbrev main_c_46 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_c_47 : Ref sig .tc := ⟨.hbm, 250, rfl⟩
abbrev main_v177 : Ref sig .tc := ⟨.hbm, 251, rfl⟩
abbrev main_v178 : Ref sig .tc := ⟨.hbm, 252, rfl⟩
abbrev main_c_48 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_c_49 : Ref sig .tc := ⟨.hbm, 268, rfl⟩
abbrev main_v193 : Ref sig .tc := ⟨.hbm, 269, rfl⟩
abbrev main_v194 : Ref sig .tc := ⟨.hbm, 270, rfl⟩
abbrev main_c_50 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_c_51 : Ref sig .tc := ⟨.hbm, 275, rfl⟩
abbrev main_v198 : Ref sig .tc := ⟨.hbm, 276, rfl⟩
abbrev main_v199 : Ref sig .tc := ⟨.hbm, 277, rfl⟩
abbrev main_c_52 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_c_53 : Ref sig .tc := ⟨.hbm, 282, rfl⟩
abbrev main_v203 : Ref sig .tc := ⟨.hbm, 283, rfl⟩
abbrev main_v204 : Ref sig .tc := ⟨.hbm, 284, rfl⟩
abbrev main_c_54 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_c_55 : Ref sig .tc := ⟨.hbm, 300, rfl⟩
abbrev main_v219 : Ref sig .tc := ⟨.hbm, 301, rfl⟩
abbrev main_v220 : Ref sig .tc := ⟨.hbm, 302, rfl⟩
abbrev main_c_56 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_c_57 : Ref sig .tc := ⟨.hbm, 307, rfl⟩
abbrev main_v224 : Ref sig .tc := ⟨.hbm, 308, rfl⟩
abbrev main_v225 : Ref sig .tc := ⟨.hbm, 309, rfl⟩
abbrev main_c_58 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_c_59 : Ref sig .tc := ⟨.hbm, 314, rfl⟩
abbrev main_v229 : Ref sig .tc := ⟨.hbm, 315, rfl⟩
abbrev main_v230 : Ref sig .tc := ⟨.hbm, 316, rfl⟩
abbrev main_c_60 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_cst_61 : Ref sig .tc := ⟨.hbm, 337, rfl⟩
abbrev main_v250 : Ref sig .tc := ⟨.hbm, 338, rfl⟩

abbrev nD : Nat := 1
abbrev τ : Topo := Topo.v7x

variable {F : FTy → Type} [FloatOps F]

class Facts₀ : Prop where
  transposes_S107811x8_S8x107811_1_0 : S107811x8.Transposes [1, 0] S8x107811
  shapeCasts_S8x107811_S8x3x33x33x33 : S8x107811.ShapeCasts S8x3x33x33x33
  bcast_S_S4x3x512x512 : S_.BroadcastsInDim S4x3x512x512 (![] : Fin 0 → Fin S4x3x512x512.rank)
  slices_S4x3x512x512_S4x1x512x512_0_0_0_0 : S4x3x512x512.Slices ![0, 0, 0, 0] S4x1x512x512
  shapeCasts_S4x1x512x512_S4x512x512 : S4x1x512x512.ShapeCasts S4x512x512
  slices_S4x3x512x512_S4x1x512x512_0_1_0_0 : S4x3x512x512.Slices ![0, 1, 0, 0] S4x1x512x512
  slices_S4x3x512x512_S4x1x512x512_0_2_0_0 : S4x3x512x512.Slices ![0, 2, 0, 0] S4x1x512x512
  bcast_S_S4x512x512 : S_.BroadcastsInDim S4x512x512 (![] : Fin 0 → Fin S4x512x512.rank)
  bcast_S4x512x512_S4x512x512x1_0_1_2 : S4x512x512.BroadcastsInDim S4x512x512x1 (![0, 1, 2] : Fin 3 → Fin S4x512x512x1.rank)
  concatenates_S4x512x512x1_S4x512x512x1_S4x512x512x1_S4x512x512x3_d3 : Shape.Concatenates [S4x512x512x1, S4x512x512x1, S4x512x512x1] S4x512x512x3 3
  bcast_S4x512x512_S1x1x4x512x512_2_3_4 : S4x512x512.BroadcastsInDim S1x1x4x512x512 (![2, 3, 4] : Fin 3 → Fin S1x1x4x512x512.rank)
  bcast_S1x1x4x512x512_S8x3x4x512x512_0_1_2_3_4 : S1x1x4x512x512.BroadcastsInDim S8x3x4x512x512 (![0, 1, 2, 3, 4] : Fin 5 → Fin S8x3x4x512x512.rank)
  transposes_S8x3x4x512x512_S4x8x3x512x512_2_0_1_3_4 : S8x3x4x512x512.Transposes [2, 0, 1, 3, 4] S4x8x3x512x512
  bcast_S4x8x512x512_S4x8x1x512x512_0_1_3_4 : S4x8x512x512.BroadcastsInDim S4x8x1x512x512 (![0, 1, 3, 4] : Fin 4 → Fin S4x8x1x512x512.rank)
  bcast_S4x8x1x512x512_S4x8x3x512x512_0_1_2_3_4 : S4x8x1x512x512.BroadcastsInDim S4x8x3x512x512 (![0, 1, 2, 3, 4] : Fin 5 → Fin S4x8x3x512x512.rank)
  reducesTo_S4x8x3x512x512_S4x3x512x512_d1 : S4x8x3x512x512.ReducesTo [1] S4x3x512x512
  h_S_ : 0 < S_.numel
  gather_S8x3x33x33x33_S4x512x512x3_S8x3x4x512x512_01_234_n_n_234_3_83111_wf : GatherDims.WF S8x3x33x33x33 S4x512x512x3 S8x3x4x512x512 [0, 1] [2, 3, 4] [] [2, 3, 4] [] 3 ![8, 3, 1, 1, 1]

variable [Facts₀]

def gather_S8x3x33x33x33_S4x512x512x3_S8x3x4x512x512_01_234_n_n_234_3_83111 : GatherDims S8x3x33x33x33 S4x512x512x3 S8x3x4x512x512 where
  offsetDims := [0, 1]
  collapsedSliceDims := [2, 3, 4]
  operandBatchingDims := []
  startIndicesBatchingDims := []
  startIndexMap := [2, 3, 4]
  indexVectorDim := 3
  sliceSizes := ![8, 3, 1, 1, 1]
  wf := gather_S8x3x33x33x33_S4x512x512x3_S8x3x4x512x512_01_234_n_n_234_3_83111_wf

class Facts : Prop extends Facts₀ where

variable [Facts]
-- ==== Proof.BitsEntry.lean ====
/-
  What the weighted-sum region finds in memory. Before it @main runs nine stretches of host operations: the
  lookup table transposed to [rank, 3·33³] and reshaped to [rank, colour, 33, 33, 33]; the image scaled by 32 and
  clipped to [0, 32]; per colour channel the lower corner (floor, clipped to 0 … 31) and the fractional part; the
  eight corner gathers, each multiplied by its trilinear weight and summed; and the transpose of that sum to
  [batch, rank, colour, row, column]. The region's entry contents `V` are the fold of those operations over the
  launch memory.
-/
import proofs.«127394_j9612136808561_1_alg».proof.Proof.Gen.Kernel.Launch
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

/-- The host stretches before the region, in order (the clip calls are stretches of their own). -/
abbrev stretches : List (List (HloOp τ sig (Elt F))) :=
  [hostOps0, hostOps0_1, hostOps0_2, hostOps0_3, hostOps0_4, hostOps0_5, hostOps0_6, hostOps0_7, hostOps0_8]

theorem stretches_sub : (stretches (F := F)).Forall fun ops => ops.Forall fun op => op.bufs ⊆ StableHlo.tcRefs τ sig := by
  refine ⟨hostOps0_sub, ?_⟩; refine ⟨hostOps0_1_sub, ?_⟩; refine ⟨hostOps0_2_sub, ?_⟩; refine ⟨hostOps0_3_sub, ?_⟩; refine ⟨hostOps0_4_sub, ?_⟩; refine ⟨hostOps0_5_sub, ?_⟩; refine ⟨hostOps0_6_sub, ?_⟩; refine ⟨hostOps0_7_sub, ?_⟩; exact hostOps0_8_sub

set_option maxHeartbeats 4000000 in
theorem fresh0 : (hostOps0 : List (HloOp τ sig (Elt F))).Forall fun op => op.fresh = ∅ := by
  repeat (first | refine ⟨rfl, ?_⟩ | exact rfl)
set_option maxHeartbeats 4000000 in
theorem fresh1 : (hostOps0_1 : List (HloOp τ sig (Elt F))).Forall fun op => op.fresh = ∅ := by
  repeat (first | refine ⟨rfl, ?_⟩ | exact rfl)
set_option maxHeartbeats 4000000 in
theorem fresh2 : (hostOps0_2 : List (HloOp τ sig (Elt F))).Forall fun op => op.fresh = ∅ := by
  repeat (first | refine ⟨rfl, ?_⟩ | exact rfl)
set_option maxHeartbeats 4000000 in
theorem fresh3 : (hostOps0_3 : List (HloOp τ sig (Elt F))).Forall fun op => op.fresh = ∅ := by
  repeat (first | refine ⟨rfl, ?_⟩ | exact rfl)
set_option maxHeartbeats 4000000 in
theorem fresh4 : (hostOps0_4 : List (HloOp τ sig (Elt F))).Forall fun op => op.fresh = ∅ := by
  repeat (first | refine ⟨rfl, ?_⟩ | exact rfl)
set_option maxHeartbeats 4000000 in
theorem fresh5 : (hostOps0_5 : List (HloOp τ sig (Elt F))).Forall fun op => op.fresh = ∅ := by
  repeat (first | refine ⟨rfl, ?_⟩ | exact rfl)
set_option maxHeartbeats 4000000 in
theorem fresh6 : (hostOps0_6 : List (HloOp τ sig (Elt F))).Forall fun op => op.fresh = ∅ := by
  repeat (first | refine ⟨rfl, ?_⟩ | exact rfl)
set_option maxHeartbeats 4000000 in
theorem fresh7 : (hostOps0_7 : List (HloOp τ sig (Elt F))).Forall fun op => op.fresh = ∅ := by
  repeat (first | refine ⟨rfl, ?_⟩ | exact rfl)
set_option maxHeartbeats 4000000 in
theorem fresh8 : (hostOps0_8 : List (HloOp τ sig (Elt F))).Forall fun op => op.fresh = ∅ := by
  repeat (first | refine ⟨rfl, ?_⟩ | exact rfl)

/-- No host operation allocates: each writes a buffer the program names. -/
theorem stretches_fresh : (stretches (F := F)).Forall fun ops => ops.Forall fun op => op.fresh = ∅ := by
  refine ⟨fresh0, ?_⟩; refine ⟨fresh1, ?_⟩; refine ⟨fresh2, ?_⟩; refine ⟨fresh3, ?_⟩; refine ⟨fresh4, ?_⟩; refine ⟨fresh5, ?_⟩; refine ⟨fresh6, ?_⟩; refine ⟨fresh7, ?_⟩; exact fresh8

variable (m : (ℓ : Loc nD τ sig) → Buf (Elt F) ℓ)

/-- Core `c`'s TensorCore buffers when the region is entered: the launch memory after the nine stretches. -/
abbrev V (c : Dev nD) (b : Ref sig .tc) : Buf (Elt F) ((c : Thread nD τ).loc b) :=
  StableHlo.after (stretches (F := F)).flatten (fun b => m (c, b)) b

/-- @main is those stretches and then the region, so it reaches the region holding the unscoped buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh main_chain

end Cert.Kernel.Hand

end
-- ==== Proof.BitsArgs.lean ====
/-
  No host operation before the region writes an argument array: every one of the 309 writes a buffer of its own (a
  value of @main or of a clip call), distinct from the four arguments. Read through the operations one by one, each
  argument buffer holds at the region's entry what it held at launch.
-/
import proofs.«127394_j9612136808561_1_alg».proof.Proof.BitsEntry
import Idealize.ShloMosaic.Lib.Pipeline.Regions

set_option maxRecDepth 65536

noncomputable section

namespace Cert.Kernel.Hand

open Cert.Kernel Cert.Kernel.Gen
open Idealize.ShloMosaic Idealize.ShloMosaic.TcCoe Idealize.ShloMosaic.StableHlo Idealize.ShloMosaic.Pipeline
open Idealize.SL Idealize.SL.Sem

variable {F : FTy → Type} [FloatOps F]
variable (m : (ℓ : Loc nD τ sig) → Buf (Elt F) ℓ)

/-- No host operation before the region writes argument 0: read through the 309 operations it is as launched
    (the fold evaluates: each operation leaves every buffer but its own result as it was). -/
theorem V_main_arg0 (c : Dev nD) : V m c main_arg0 = m ((c : Thread nD τ).loc main_arg0) := by
  show StableHlo.after (stretches (F := F)).flatten (fun b => m (c, b)) (Proc.devRef .tc main_arg0) = (fun b => m (c, b)) (Proc.devRef .tc main_arg0)
  chain_rfl

/-- No host operation before the region writes argument 1: read through the 309 operations it is as launched
    (the fold evaluates: each operation leaves every buffer but its own result as it was). -/
theorem V_main_arg1 (c : Dev nD) : V m c main_arg1 = m ((c : Thread nD τ).loc main_arg1) := by
  show StableHlo.after (stretches (F := F)).flatten (fun b => m (c, b)) (Proc.devRef .tc main_arg1) = (fun b => m (c, b)) (Proc.devRef .tc main_arg1)
  chain_rfl

/-- No host operation before the region writes argument 2: read through the 309 operations it is as launched
    (the fold evaluates: each operation leaves every buffer but its own result as it was). -/
theorem V_main_arg2 (c : Dev nD) : V m c main_arg2 = m ((c : Thread nD τ).loc main_arg2) := by
  show StableHlo.after (stretches (F := F)).flatten (fun b => m (c, b)) (Proc.devRef .tc main_arg2) = (fun b => m (c, b)) (Proc.devRef .tc main_arg2)
  chain_rfl

/-- No host operation before the region writes argument 3: read through the 309 operations it is as launched
    (the fold evaluates: each operation leaves every buffer but its own result as it was). -/
theorem V_main_arg3 (c : Dev nD) : V m c main_arg3 = m ((c : Thread nD τ).loc main_arg3) := by
  show StableHlo.after (stretches (F := F)).flatten (fun b => m (c, b)) (Proc.devRef .tc main_arg3) = (fun b => m (c, b)) (Proc.devRef .tc main_arg3)
  chain_rfl

end Cert.Kernel.Hand

end
-- ==== Proof.BitsBody.lean ====
/-
  The weighted-sum body on one grid point. It loads the two weight blocks [1, 8, 128, 512] and the block of sampled
  LUT outputs [1, 8, 3, 128, 512] whole, forms (w₀ · w₁) spread over the colour axis times the outputs, sums over the
  rank axis from zero, and stores the [1, 3, 128, 512] result over its whole output buffer (it also loads that buffer
  first and ignores what it read). So after the body the output buffer holds that sum of the three input blocks,
  whatever it held before, and the input buffers are as they were.
-/
import proofs.«127394_j9612136808561_1_alg».proof.Proof.Gen.Kernel.Launch
import proofs.«127394_j9612136808561_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole weight block, the whole block of sampled outputs, the whole result block, as rectangles. -/
abbrev wRect : Rect S1x8x128x512 := Rect.unit (s := S1x8x128x512) ![0, 0, 0, 0] S1x8x128x512.size inb_S1x8x128x512_S1x8x128x512_0_0_0_0
abbrev oRect : Rect S1x8x3x128x512 := Rect.unit (s := S1x8x3x128x512) ![0, 0, 0, 0, 0] S1x8x3x128x512.size inb_S1x8x3x128x512_S1x8x3x128x512_0_0_0_0_0
abbrev rRect : Rect S1x3x128x512 := Rect.unit (s := S1x3x128x512) ![0, 0, 0, 0] S1x3x128x512.size inb_S1x3x128x512_S1x3x128x512_0_0_0_0

/-- What the body leaves in the output buffer, from the three input blocks: its one store, of the rank sum. -/
def sumBlock (x0 : Vec F S1x8x128x512 .f32) (x1 : Vec F S1x8x128x512 .f32) (x2 : Vec F S1x8x3x128x512 .f32) : Vec F S1x3x128x512 .f32 :=
  View.canon [⟨rRect, k0_pay1 (View.ld x0 wRect) (View.ld x1 wRect) (View.ld x2 oRect)⟩]

/-- That one store is of the whole buffer, so it covers it. -/
theorem sumBlock_cover (p0 : Vec F S1x3x128x512 .f32) (y : S1x3x128x512.Idx) :
    ∃ pc ∈ ([⟨rRect, p0⟩] : List (View.Piece (Elt F) S1x3x128x512 .f32)), y ∈ pc.1.set :=
  View.cover_of_tiled [⟨rRect, p0⟩] S1x3x128x512.size (by rfl) y

set_option maxHeartbeats 2000000 in
/-- The body on whole staging buffers, the inputs' at contents `x0 x1 x2` and the output's at anything, runs to a
    continuation that holds the inputs' as they were and the output's at `sumBlock x0 x1 x2`. -/
theorem sound_kernel (c : Dev nD) (E : Set ℕ) (i : grid0.Coords)
    (arg2 : Memref sig .tc .vmem S1x8x128x512 .f32) (harg2 : arg2.IsWhole) (arg3 : Memref sig .tc .vmem S1x8x128x512 .f32) (harg3 : arg3.IsWhole)
    (arg4 : Memref sig .tc .vmem S1x8x3x128x512 .f32) (harg4 : arg4.IsWhole) (arg5 : Memref sig .tc .vmem S1x3x128x512 .f32) (harg5 : arg5.IsWhole)
    (x0 : Vec F S1x8x128x512 .f32) (x1 : Vec F S1x8x128x512 .f32) (x2 : Vec F S1x8x3x128x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (sumBlock x0 x1 x2)) -∗ K ⟨⟩))
      ⊢ wp frame (wpE (defs₀ (F := F)) Variants.none c none) E (cc0__weighted_sum_kernel i arg2 harg2 arg3 harg3 arg4 harg4 arg5 harg5) K := by
  simp only [cc0__weighted_sum_kernel_eq_skeleton]; unfold cc0__weighted_sum_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (sumBlock_cover _)

end Cert.Kernel.Hand

end
-- ==== Proof.BitsRun.lean ====
/-
  The run of the whole program and its frame. The pipeline has a 4 × 4 grid (batch, row tile of 128): at point
  (b, h) the two weight windows hold rows 128h … 128h+127 of batch b over all eight ranks, the third window the same
  rows of the sampled outputs over all ranks and colours, and the output window is written back to those rows of the
  result over the three colours. The proof data says so: every input buffer keeps its block, the output buffer ends at
  the body's rank sum of the three blocks. With the body's triple this gives the library's frame run, whose post has
  every array of the pipeline at what the data computes and every other buffer as the region found it; the four
  arguments are read back from it unchanged.
-/
import proofs.«127394_j9612136808561_1_alg».proof.Proof.BitsEntry
import proofs.«127394_j9612136808561_1_alg».proof.Proof.BitsArgs
import proofs.«127394_j9612136808561_1_alg».proof.Proof.BitsBody
import proofs.«127394_j9612136808561_1_alg».proof.Proof.Gen.Kernel.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    entry contents' and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    entry contents' and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    entry contents' and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame from a frame run: the two weight arrays are staged inputs, read back as the data's arrays; the image
    and the lookup table are staged by no window, read back as the region found them; each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-- The proof data of the pipeline on core `c`: the arrays as the region finds them; after the body at point `t` each
    input's buffer at its block and the output's at the rank sum of the three blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => sumBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = sumBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has each array of the pipeline at what the
    data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.IdealEntry.lean ====
/-
  What the weighted-sum region finds in memory. Before it @main runs nine stretches of host operations: the
  lookup table transposed to [rank, 3·33³] and reshaped to [rank, colour, 33, 33, 33]; the image scaled by 32 and
  clipped to [0, 32]; per colour channel the lower corner (floor, clipped to 0 … 31) and the fractional part; the
  eight corner gathers, each multiplied by its trilinear weight and summed; and the transpose of that sum to
  [batch, rank, colour, row, column]. The region's entry contents `V` are the fold of those operations over the
  launch memory.
-/
import proofs.«127394_j9612136808561_1_alg».proof.Proof.Gen.KernelIdeal.Launch
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

/-- The host stretches before the region, in order (the clip calls are stretches of their own). -/
abbrev stretches : List (List (HloOp τ sig (Elt F))) :=
  [hostOps0, hostOps0_1, hostOps0_2, hostOps0_3, hostOps0_4, hostOps0_5, hostOps0_6, hostOps0_7, hostOps0_8]

theorem stretches_sub : (stretches (F := F)).Forall fun ops => ops.Forall fun op => op.bufs ⊆ StableHlo.tcRefs τ sig := by
  refine ⟨hostOps0_sub, ?_⟩; refine ⟨hostOps0_1_sub, ?_⟩; refine ⟨hostOps0_2_sub, ?_⟩; refine ⟨hostOps0_3_sub, ?_⟩; refine ⟨hostOps0_4_sub, ?_⟩; refine ⟨hostOps0_5_sub, ?_⟩; refine ⟨hostOps0_6_sub, ?_⟩; refine ⟨hostOps0_7_sub, ?_⟩; exact hostOps0_8_sub

set_option maxHeartbeats 4000000 in
theorem fresh0 : (hostOps0 : List (HloOp τ sig (Elt F))).Forall fun op => op.fresh = ∅ := by
  repeat (first | refine ⟨rfl, ?_⟩ | exact rfl)
set_option maxHeartbeats 4000000 in
theorem fresh1 : (hostOps0_1 : List (HloOp τ sig (Elt F))).Forall fun op => op.fresh = ∅ := by
  repeat (first | refine ⟨rfl, ?_⟩ | exact rfl)
set_option maxHeartbeats 4000000 in
theorem fresh2 : (hostOps0_2 : List (HloOp τ sig (Elt F))).Forall fun op => op.fresh = ∅ := by
  repeat (first | refine ⟨rfl, ?_⟩ | exact rfl)
set_option maxHeartbeats 4000000 in
theorem fresh3 : (hostOps0_3 : List (HloOp τ sig (Elt F))).Forall fun op => op.fresh = ∅ := by
  repeat (first | refine ⟨rfl, ?_⟩ | exact rfl)
set_option maxHeartbeats 4000000 in
theorem fresh4 : (hostOps0_4 : List (HloOp τ sig (Elt F))).Forall fun op => op.fresh = ∅ := by
  repeat (first | refine ⟨rfl, ?_⟩ | exact rfl)
set_option maxHeartbeats 4000000 in
theorem fresh5 : (hostOps0_5 : List (HloOp τ sig (Elt F))).Forall fun op => op.fresh = ∅ := by
  repeat (first | refine ⟨rfl, ?_⟩ | exact rfl)
set_option maxHeartbeats 4000000 in
theorem fresh6 : (hostOps0_6 : List (HloOp τ sig (Elt F))).Forall fun op => op.fresh = ∅ := by
  repeat (first | refine ⟨rfl, ?_⟩ | exact rfl)
set_option maxHeartbeats 4000000 in
theorem fresh7 : (hostOps0_7 : List (HloOp τ sig (Elt F))).Forall fun op => op.fresh = ∅ := by
  repeat (first | refine ⟨rfl, ?_⟩ | exact rfl)
set_option maxHeartbeats 4000000 in
theorem fresh8 : (hostOps0_8 : List (HloOp τ sig (Elt F))).Forall fun op => op.fresh = ∅ := by
  repeat (first | refine ⟨rfl, ?_⟩ | exact rfl)

/-- No host operation allocates: each writes a buffer the program names. -/
theorem stretches_fresh : (stretches (F := F)).Forall fun ops => ops.Forall fun op => op.fresh = ∅ := by
  refine ⟨fresh0, ?_⟩; refine ⟨fresh1, ?_⟩; refine ⟨fresh2, ?_⟩; refine ⟨fresh3, ?_⟩; refine ⟨fresh4, ?_⟩; refine ⟨fresh5, ?_⟩; refine ⟨fresh6, ?_⟩; refine ⟨fresh7, ?_⟩; exact fresh8

variable (m : (ℓ : Loc nD τ sig) → Buf (Elt F) ℓ)

/-- Core `c`'s TensorCore buffers when the region is entered: the launch memory after the nine stretches. -/
abbrev V (c : Dev nD) (b : Ref sig .tc) : Buf (Elt F) ((c : Thread nD τ).loc b) :=
  StableHlo.after (stretches (F := F)).flatten (fun b => m (c, b)) b

/-- @main is those stretches and then the region, so it reaches the region holding the unscoped buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh main_chain

end Cert.KernelIdeal.Hand

end
-- ==== Proof.IdealArgs.lean ====
/-
  No host operation before the region writes an argument array: every one of the 309 writes a buffer of its own (a
  value of @main or of a clip call), distinct from the four arguments. Read through the operations one by one, each
  argument buffer holds at the region's entry what it held at launch.
-/
import proofs.«127394_j9612136808561_1_alg».proof.Proof.IdealEntry
import Idealize.ShloMosaic.Lib.Pipeline.Regions

set_option maxRecDepth 65536

noncomputable section

namespace Cert.KernelIdeal.Hand

open Cert.KernelIdeal Cert.KernelIdeal.Gen
open Idealize.ShloMosaic Idealize.ShloMosaic.TcCoe Idealize.ShloMosaic.StableHlo Idealize.ShloMosaic.Pipeline
open Idealize.SL Idealize.SL.Sem

variable {F : FTy → Type} [FloatOps F]
variable (m : (ℓ : Loc nD τ sig) → Buf (Elt F) ℓ)

/-- No host operation before the region writes argument 0: read through the 309 operations it is as launched
    (the fold evaluates: each operation leaves every buffer but its own result as it was). -/
theorem V_main_arg0 (c : Dev nD) : V m c main_arg0 = m ((c : Thread nD τ).loc main_arg0) := by
  show StableHlo.after (stretches (F := F)).flatten (fun b => m (c, b)) (Proc.devRef .tc main_arg0) = (fun b => m (c, b)) (Proc.devRef .tc main_arg0)
  chain_rfl

/-- No host operation before the region writes argument 1: read through the 309 operations it is as launched
    (the fold evaluates: each operation leaves every buffer but its own result as it was). -/
theorem V_main_arg1 (c : Dev nD) : V m c main_arg1 = m ((c : Thread nD τ).loc main_arg1) := by
  show StableHlo.after (stretches (F := F)).flatten (fun b => m (c, b)) (Proc.devRef .tc main_arg1) = (fun b => m (c, b)) (Proc.devRef .tc main_arg1)
  chain_rfl

/-- No host operation before the region writes argument 2: read through the 309 operations it is as launched
    (the fold evaluates: each operation leaves every buffer but its own result as it was). -/
theorem V_main_arg2 (c : Dev nD) : V m c main_arg2 = m ((c : Thread nD τ).loc main_arg2) := by
  show StableHlo.after (stretches (F := F)).flatten (fun b => m (c, b)) (Proc.devRef .tc main_arg2) = (fun b => m (c, b)) (Proc.devRef .tc main_arg2)
  chain_rfl

/-- No host operation before the region writes argument 3: read through the 309 operations it is as launched
    (the fold evaluates: each operation leaves every buffer but its own result as it was). -/
theorem V_main_arg3 (c : Dev nD) : V m c main_arg3 = m ((c : Thread nD τ).loc main_arg3) := by
  show StableHlo.after (stretches (F := F)).flatten (fun b => m (c, b)) (Proc.devRef .tc main_arg3) = (fun b => m (c, b)) (Proc.devRef .tc main_arg3)
  chain_rfl

end Cert.KernelIdeal.Hand

end
-- ==== Proof.IdealBody.lean ====
/-
  The weighted-sum body on one grid point. It loads the two weight blocks [1, 8, 128, 512] and the block of sampled
  LUT outputs [1, 8, 3, 128, 512] whole, forms (w₀ · w₁) spread over the colour axis times the outputs, sums over the
  rank axis from zero, and stores the [1, 3, 128, 512] result over its whole output buffer (it also loads that buffer
  first and ignores what it read). So after the body the output buffer holds that sum of the three input blocks,
  whatever it held before, and the input buffers are as they were.
-/
import proofs.«127394_j9612136808561_1_alg».proof.Proof.Gen.KernelIdeal.Launch
import proofs.«127394_j9612136808561_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole weight block, the whole block of sampled outputs, the whole result block, as rectangles. -/
abbrev wRect : Rect S1x8x128x512 := Rect.unit (s := S1x8x128x512) ![0, 0, 0, 0] S1x8x128x512.size inb_S1x8x128x512_S1x8x128x512_0_0_0_0
abbrev oRect : Rect S1x8x3x128x512 := Rect.unit (s := S1x8x3x128x512) ![0, 0, 0, 0, 0] S1x8x3x128x512.size inb_S1x8x3x128x512_S1x8x3x128x512_0_0_0_0_0
abbrev rRect : Rect S1x3x128x512 := Rect.unit (s := S1x3x128x512) ![0, 0, 0, 0] S1x3x128x512.size inb_S1x3x128x512_S1x3x128x512_0_0_0_0

/-- What the body leaves in the output buffer, from the three input blocks: its one store, of the rank sum. -/
def sumBlock (x0 : Vec F S1x8x128x512 .f32) (x1 : Vec F S1x8x128x512 .f32) (x2 : Vec F S1x8x3x128x512 .f32) : Vec F S1x3x128x512 .f32 :=
  View.canon [⟨rRect, k0_pay1 (View.ld x0 wRect) (View.ld x1 wRect) (View.ld x2 oRect)⟩]

/-- That one store is of the whole buffer, so it covers it. -/
theorem sumBlock_cover (p0 : Vec F S1x3x128x512 .f32) (y : S1x3x128x512.Idx) :
    ∃ pc ∈ ([⟨rRect, p0⟩] : List (View.Piece (Elt F) S1x3x128x512 .f32)), y ∈ pc.1.set :=
  View.cover_of_tiled [⟨rRect, p0⟩] S1x3x128x512.size (by rfl) y

set_option maxHeartbeats 2000000 in
/-- The body on whole staging buffers, the inputs' at contents `x0 x1 x2` and the output's at anything, runs to a
    continuation that holds the inputs' as they were and the output's at `sumBlock x0 x1 x2`. -/
theorem sound_kernel (c : Dev nD) (E : Set ℕ) (i : grid0.Coords)
    (arg2 : Memref sig .tc .vmem S1x8x128x512 .f32) (harg2 : arg2.IsWhole) (arg3 : Memref sig .tc .vmem S1x8x128x512 .f32) (harg3 : arg3.IsWhole)
    (arg4 : Memref sig .tc .vmem S1x8x3x128x512 .f32) (harg4 : arg4.IsWhole) (arg5 : Memref sig .tc .vmem S1x3x128x512 .f32) (harg5 : arg5.IsWhole)
    (x0 : Vec F S1x8x128x512 .f32) (x1 : Vec F S1x8x128x512 .f32) (x2 : Vec F S1x8x3x128x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (sumBlock x0 x1 x2)) -∗ K ⟨⟩))
      ⊢ wp frame (wpE (defs₀ (F := F)) Variants.none c none) E (cc0__weighted_sum_kernel i arg2 harg2 arg3 harg3 arg4 harg4 arg5 harg5) K := by
  simp only [cc0__weighted_sum_kernel_eq_skeleton]; unfold cc0__weighted_sum_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (sumBlock_cover _)

end Cert.KernelIdeal.Hand

end
-- ==== Proof.IdealRun.lean ====
/-
  The run of the whole program and its frame. The pipeline has a 4 × 4 grid (batch, row tile of 128): at point
  (b, h) the two weight windows hold rows 128h … 128h+127 of batch b over all eight ranks, the third window the same
  rows of the sampled outputs over all ranks and colours, and the output window is written back to those rows of the
  result over the three colours. The proof data says so: every input buffer keeps its block, the output buffer ends at
  the body's rank sum of the three blocks. With the body's triple this gives the library's frame run, whose post has
  every array of the pipeline at what the data computes and every other buffer as the region found it; the four
  arguments are read back from it unchanged.
-/
import proofs.«127394_j9612136808561_1_alg».proof.Proof.IdealEntry
import proofs.«127394_j9612136808561_1_alg».proof.Proof.IdealArgs
import proofs.«127394_j9612136808561_1_alg».proof.Proof.IdealBody
import proofs.«127394_j9612136808561_1_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    entry contents' and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    entry contents' and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    entry contents' and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame from a frame run: the two weight arrays are staged inputs, read back as the data's arrays; the image
    and the lookup table are staged by no window, read back as the region found them; each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-- The proof data of the pipeline on core `c`: the arrays as the region finds them; after the body at point `t` each
    input's buffer at its block and the output's at the rank sum of the three blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => sumBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = sumBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has each array of the pipeline at what the
    data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.RankSum.lean ====
/-
  The weighted rank sum: at batch b, colour c, row p, column q,
      ∑ over the eight ranks r of (w₀[b, r, p, q] · w₁[b, r, p, q]) · o[b, r, c, p, q]
  on the extended reals, for weight arrays w₀ w₁ of shape [batch, 8, rows, columns] and sampled outputs o of shape
  [batch, 8, 3, rows, columns]. Both programs compute it in this order of factors, from a zero start: the kernel on a
  [1, 8, 128, 512] block (the weight product given a unit colour axis, spread over the three colours, multiplied with
  the outputs, summed along the rank axis by a lane reduction), the reference on the whole arrays (the same product
  spread by two broadcasts, multiplied, summed along the rank axis by the host's reduce). No law of arithmetic is
  needed to join them beyond 0 + x = x: the terms of the two sums are the same products.
-/
import Idealize.ShloMosaic.PureOps.Ideal
import Idealize.ShloMosaic.PureOps.Ideal.Laws
import Idealize.ShloMosaic.Lib.ValueIdx
import Idealize.ShloMosaic.Lib.Pipeline.Value

noncomputable section

namespace Cert.RankSum

open Idealize.ShloMosaic Idealize.ShloMosaic.ValueIdx
open scoped BigOperators

/-- The weighted rank sum at one position. -/
def wsum {nb nh nw : ℕ} (w0 w1 : (⟨4, ![nb, 8, nh, nw]⟩ : Shape).Idx → EReal) (o : (⟨5, ![nb, 8, 3, nh, nw]⟩ : Shape).Idx → EReal)
    (b : Fin nb) (c : Fin 3) (p : Fin nh) (q : Fin nw) : EReal :=
  ∑ r : Fin 8, (w0 (ix4 b r p q) * w1 (ix4 b r p q)) * o (ix5 b r c p q)

/-- The weighted rank sum as a whole array [batch, 3, rows, columns]. -/
def wsumArr {nb nh nw : ℕ} (w0 w1 : (⟨4, ![nb, 8, nh, nw]⟩ : Shape).Idx → EReal) (o : (⟨5, ![nb, 8, 3, nh, nw]⟩ : Shape).Idx → EReal) :
    (⟨4, ![nb, 3, nh, nw]⟩ : Shape).Idx → EReal :=
  fun j => wsum w0 w1 o (j 0) (j 1) (j 2) (j 3)

theorem wsumArr_ix {nb nh nw : ℕ} (w0 w1 : (⟨4, ![nb, 8, nh, nw]⟩ : Shape).Idx → EReal) (o : (⟨5, ![nb, 8, 3, nh, nw]⟩ : Shape).Idx → EReal)
    (b : Fin nb) (c : Fin 3) (p : Fin nh) (q : Fin nw) : wsumArr w0 w1 o (ix4 b c p q) = wsum w0 w1 o b c p q := rfl

/-- The weight product with a unit colour axis inserted, read at (b, r, 0, p, q): the product at (b, r, p, q). -/
theorem unitColour_apply {nb nh nw : ℕ} (x : (⟨4, ![nb, 8, nh, nw]⟩ : Shape).Idx → EReal)
    (h : (⟨4, ![nb, 8, nh, nw]⟩ : Shape).ShapeCasts ⟨5, ![nb, 8, 1, nh, nw]⟩) (b : Fin nb) (r : Fin 8) (u : Fin 1) (p : Fin nh) (q : Fin nw) :
    shapeCast ⟨5, ![nb, 8, 1, nh, nw]⟩ x h (ix5 b r u p q) = x (ix4 b r p q) :=
  shapeCast_apply x h _ _ (by
    have hu : u.val = 0 := by omega
    rw [Shape.rowMajor_val_four, Shape.rowMajor_val_five]
    show ((b.val * 8 + r.val) * nh + p.val) * nw + q.val = (((b.val * 8 + r.val) * 1 + u.val) * nh + p.val) * nw + q.val
    rw [hu, Nat.mul_one, Nat.add_zero])

/-- THE KERNEL'S BLOCK TERM read at (0, c, p, q): the weighted rank sum of the three blocks there. -/
theorem block_apply
    (x0 x1 : FVec Ideal ⟨4, ![1, 8, 128, 512]⟩ .f32) (x2 : FVec Ideal ⟨5, ![1, 8, 3, 128, 512]⟩ .f32)
    (h1 : (⟨4, ![1, 8, 128, 512]⟩ : Shape).ShapeCasts ⟨5, ![1, 8, 1, 128, 512]⟩)
    (h2 : (⟨5, ![1, 8, 3, 128, 512]⟩ : Shape).ShapeCasts ⟨5, ![1, 8, 3, 128, 512]⟩)
    (h3 : (⟨5, ![1, 8, 1, 128, 512]⟩ : Shape).Broadcasts ⟨5, ![1, 8, 3, 128, 512]⟩)
    (h4 : (⟨5, ![1, 8, 3, 128, 512]⟩ : Shape).Reduces [1] ⟨4, ![1, 3, 128, 512]⟩)
    (hφ : FKind.Formats .f32) (hacc : (0x00000000#32 : BitVec 32) = FKind.add.neutral .f32 hφ)
    (c : Fin 3) (p : Fin 128) (q : Fin 512) :
    multiReduction (F := Ideal) .add [1] ⟨4, ![1, 3, 128, 512]⟩
        (mulf (broadcastTo ⟨5, ![1, 8, 3, 128, 512]⟩ (shapeCast ⟨5, ![1, 8, 1, 128, 512]⟩ (mulf x0 x1) h1) h3)
          (shapeCast ⟨5, ![1, 8, 3, 128, 512]⟩ x2 h2))
        0x00000000#32 h4 hφ hacc (ix4 (0 : Fin 1) c p q)
      = wsum x0 x1 x2 (0 : Fin 1) c p q := by
  refine (Ideal.multiReduction_add_single _ _ h4 hφ hacc _).trans ?_
  unfold wsum
  refine Finset.sum_congr rfl fun r _ => ?_
  have hl : h4.lift (ix4 (0 : Fin 1) c p q) r = ix5 (0 : Fin 1) r c p q := by
    funext a; apply Fin.ext
    match a with
    | ⟨0, _⟩ => rfl
    | ⟨1, _⟩ => rfl
    | ⟨2, _⟩ => rfl
    | ⟨3, _⟩ => rfl
    | ⟨4, _⟩ => rfl
  rw [hl, shapeCast_self]
  show broadcastTo ⟨5, ![1, 8, 3, 128, 512]⟩ (shapeCast ⟨5, ![1, 8, 1, 128, 512]⟩ (mulf x0 x1) h1) h3 (ix5 (0 : Fin 1) r c p q)
      * x2 (ix5 (0 : Fin 1) r c p q) = _
  rw [broadcastTo_apply _ h3 (ix5 (0 : Fin 1) r c p q) (ix5 (0 : Fin 1) r (0 : Fin 1) p q) (fun a => by
      match a with
      | ⟨0, _⟩ => rfl
      | ⟨1, _⟩ => rfl
      | ⟨2, _⟩ => rfl
      | ⟨3, _⟩ => rfl
      | ⟨4, _⟩ => rfl),
    unitColour_apply (mulf x0 x1) h1 (0 : Fin 1) r (0 : Fin 1) p q]
  rfl

/-- THE REFERENCE'S TERM read at (b, c, p, q): zero plus the same sum over the whole arrays. -/
theorem host_apply
    (w0 w1 : FVec Ideal ⟨4, ![4, 8, 512, 512]⟩ .f32) (o : FVec Ideal ⟨5, ![4, 8, 3, 512, 512]⟩ .f32)
    (hb1 : (⟨4, ![4, 8, 512, 512]⟩ : Shape).BroadcastsInDim ⟨5, ![4, 8, 1, 512, 512]⟩ ![0, 1, 3, 4])
    (hb2 : (⟨5, ![4, 8, 1, 512, 512]⟩ : Shape).BroadcastsInDim ⟨5, ![4, 8, 3, 512, 512]⟩ ![0, 1, 2, 3, 4])
    (hr' : (⟨5, ![4, 8, 3, 512, 512]⟩ : Shape).ReducesTo [1] ⟨4, ![4, 3, 512, 512]⟩)
    (hr : (⟨5, ![4, 8, 3, 512, 512]⟩ : Shape).Reduces [1] ⟨4, ![4, 3, 512, 512]⟩)
    (hu : 0 < (⟨0, ![]⟩ : Shape).numel)
    (b : Fin 4) (c : Fin 3) (p q : Fin 512) :
    Host.reduceAdd (F := Ideal)
        (mulf (broadcastInDim ⟨5, ![4, 8, 3, 512, 512]⟩ ![0, 1, 2, 3, 4] hb2
            (broadcastInDim ⟨5, ![4, 8, 1, 512, 512]⟩ ![0, 1, 3, 4] hb1 (mulf w0 w1))) o)
        (constant (F := Ideal) ⟨0, ![]⟩ .f32 0x00000000#32) hr' hu (ix4 b c p q)
      = wsum w0 w1 o b c p q := by
  unfold Host.reduceAdd
  rw [Ideal.hostReduceAdd_def]
  refine (Ideal.hostReduceAdd_single hr' hr _ _ _).trans ?_
  have h0 : (constant (F := Ideal) ⟨0, ![]⟩ .f32 0x00000000#32) (Shape.Idx.first hu) = (0 : EReal) :=
    Ideal.ofBits_zero_f32
  rw [h0, zero_add]
  unfold wsum
  refine Finset.sum_congr rfl fun r _ => ?_
  have hl : hr.lift (ix4 b c p q) r = ix5 b r c p q := by
    funext a; apply Fin.ext
    match a with
    | ⟨0, _⟩ => rfl
    | ⟨1, _⟩ => rfl
    | ⟨2, _⟩ => rfl
    | ⟨3, _⟩ => rfl
    | ⟨4, _⟩ => rfl
  rw [hl]
  show broadcastInDim ⟨5, ![4, 8, 3, 512, 512]⟩ ![0, 1, 2, 3, 4] hb2
      (broadcastInDim ⟨5, ![4, 8, 1, 512, 512]⟩ ![0, 1, 3, 4] hb1 (mulf w0 w1)) (ix5 b r c p q) * o (ix5 b r c p q) = _
  rw [broadcastInDim_apply _ hb2 _ (ix5 b r c p q) (ix5 b r (0 : Fin 1) p q) (fun a => by
      match a with
      | ⟨0, _⟩ => rfl
      | ⟨1, _⟩ => rfl
      | ⟨2, _⟩ => rfl
      | ⟨3, _⟩ => rfl
      | ⟨4, _⟩ => rfl),
    broadcastInDim_apply _ hb1 _ (ix5 b r (0 : Fin 1) p q) (ix4 b r p q) (fun a => by
      match a with
      | ⟨0, _⟩ => rfl
      | ⟨1, _⟩ => rfl
      | ⟨2, _⟩ => rfl
      | ⟨3, _⟩ => rfl)]
  rfl

end Cert.RankSum

end
-- ==== Proof.IdealValue.lean ====
/-
  What the kernel's result array holds after the run, at the extended reals. Point (b, h) of the 4 × 4 grid writes
  back the block [b, all colours, rows 128h … 128h+127, all columns] of the result, and what it writes is the body's
  rank sum of its three input blocks, which are the same rows of batch b of the two weight arrays and of the sampled
  outputs. So the block it writes is that block of ONE whole-array function, the weighted rank sum of the arrays as
  the region finds them; the sixteen blocks tile the result array, which therefore ends holding that function.
-/
import proofs.«127394_j9612136808561_1_alg».proof.Proof.IdealRun
import proofs.«127394_j9612136808561_1_alg».proof.Proof.RankSum
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.RankSum

variable (m : (ℓ : Loc nD τ sig) → Buf (Elt Ideal) ℓ) (ρ : Dev nD → PrngReg)

/-- The two weight arrays and the sampled outputs as the region finds them, at their literal types. -/
abbrev w0Arr (c : Dev nD) : FVec Ideal S4x8x512x512 .f32 := V m c main_arg0
abbrev w1Arr (c : Dev nD) : FVec Ideal S4x8x512x512 .f32 := V m c main_arg1
abbrev outsArr (c : Dev nD) : FVec Ideal S4x8x3x512x512 .f32 := V m c main_v245

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The body's stored value read at (0, c, p, q): the weighted rank sum of the three loaded blocks there. -/
theorem pay_apply (x0 x1 : FVec Ideal S1x8x128x512 .f32) (x2 : FVec Ideal S1x8x3x128x512 .f32) (cc : Fin 3) (p : Fin 128) (q : Fin 512) :
    k0_pay1 (F := Ideal) x0 x1 x2 (ix4 (0 : Fin 1) cc p q) = wsum x0 x1 x2 (0 : Fin 1) cc p q := by
  unfold k0_pay1
  exact block_apply x0 x1 x2 _ _ _ _ _ _ cc p q

/-- The printed index maps, decided over the sixteen points: every window sits at batch `b` and row tile `h` of the
    output's block and at block 0 on its other axes. -/
theorem idx_facts : ∀ t : Fin cfg0.N,
    win0_0.index t (0 : Fin 4) = win0_3.index t (0 : Fin 4) ∧ win0_0.index t (1 : Fin 4) = 0
    ∧ win0_0.index t (2 : Fin 4) = win0_3.index t (2 : Fin 4) ∧ win0_0.index t (3 : Fin 4) = 0
    ∧ win0_1.index t (0 : Fin 4) = win0_3.index t (0 : Fin 4) ∧ win0_1.index t (1 : Fin 4) = 0
    ∧ win0_1.index t (2 : Fin 4) = win0_3.index t (2 : Fin 4) ∧ win0_1.index t (3 : Fin 4) = 0
    ∧ win0_2.index t (0 : Fin 5) = win0_3.index t (0 : Fin 4) ∧ win0_2.index t (1 : Fin 5) = 0 ∧ win0_2.index t (2 : Fin 5) = 0
    ∧ win0_2.index t (3 : Fin 5) = win0_3.index t (2 : Fin 4) ∧ win0_2.index t (4 : Fin 5) = 0
    ∧ win0_3.index t (1 : Fin 4) = 0 ∧ win0_3.index t (3 : Fin 4) = 0
    ∧ win0_3.index t (0 : Fin 4) ≤ 3 ∧ win0_3.index t (2 : Fin 4) ≤ 3 :=
  (by decide +kernel : ∀ t : Fin grid0.N, _)

/-- Every (batch, row tile) is some point's. -/
theorem idx_onto : ∀ (q0 : Fin 4) (q2 : Fin 4), ∃ t : Fin cfg0.N, win0_3.index t = ![q0.val, 0, q2.val, 0] :=
  (by decide +kernel : ∀ (q0 : Fin 4) (q2 : Fin 4), ∃ t : Fin grid0.N, win0_3.index t = ![q0.val, 0, q2.val, 0])

/-- A weight block read at (0, r, p, q) is the weight array at (b, r, 128h + p, q). -/
theorem w0_read (c : Dev nD) (t : Fin cfg0.N) (u : Fin 1) (r : Fin 8) (p : Fin 128) (q : Fin 512) (i : S4x8x512x512.Idx)
    (h0 : (i 0).val = win0_3.index t (0 : Fin 4)) (h1 : (i 1).val = r.val) (h2 : (i 2).val = win0_3.index t (2 : Fin 4) * 128 + p.val)
    (h3 : (i 3).val = q.val) : iblk m c 0 t (ix4 u r p q) = w0Arr m c i := by
  obtain ⟨e0, e1, e2, e3, -⟩ := idx_facts t
  have hu : u.val = 0 := by omega
  show V m c main_arg0 (((cfg0.win 0).blk t).view.emb (ix4 u r p q)) = V m c main_arg0 i
  refine congrArg (V m c main_arg0) ?_
  funext a; apply Fin.ext
  match a with
  | ⟨0, _⟩ => show win0_0.index t (0 : Fin 4) * 1 + 1 * u.val = (i 0).val; omega
  | ⟨1, _⟩ => show win0_0.index t (1 : Fin 4) * 8 + 1 * r.val = (i 1).val; omega
  | ⟨2, _⟩ => show win0_0.index t (2 : Fin 4) * 128 + 1 * p.val = (i 2).val; omega
  | ⟨3, _⟩ => show win0_0.index t (3 : Fin 4) * 512 + 1 * q.val = (i 3).val; omega

theorem w1_read (c : Dev nD) (t : Fin cfg0.N) (u : Fin 1) (r : Fin 8) (p : Fin 128) (q : Fin 512) (i : S4x8x512x512.Idx)
    (h0 : (i 0).val = win0_3.index t (0 : Fin 4)) (h1 : (i 1).val = r.val) (h2 : (i 2).val = win0_3.index t (2 : Fin 4) * 128 + p.val)
    (h3 : (i 3).val = q.val) : iblk m c 1 t (ix4 u r p q) = w1Arr m c i := by
  obtain ⟨-, -, -, -, e0, e1, e2, e3, -⟩ := idx_facts t
  have hu : u.val = 0 := by omega
  show V m c main_arg1 (((cfg0.win 1).blk t).view.emb (ix4 u r p q)) = V m c main_arg1 i
  refine congrArg (V m c main_arg1) ?_
  funext a; apply Fin.ext
  match a with
  | ⟨0, _⟩ => show win0_1.index t (0 : Fin 4) * 1 + 1 * u.val = (i 0).val; omega
  | ⟨1, _⟩ => show win0_1.index t (1 : Fin 4) * 8 + 1 * r.val = (i 1).val; omega
  | ⟨2, _⟩ => show win0_1.index t (2 : Fin 4) * 128 + 1 * p.val = (i 2).val; omega
  | ⟨3, _⟩ => show win0_1.index t (3 : Fin 4) * 512 + 1 * q.val = (i 3).val; omega

/-- The block of sampled outputs read at (0, r, c, p, q) is the array at (b, r, c, 128h + p, q). -/
theorem outs_read (c : Dev nD) (t : Fin cfg0.N) (u : Fin 1) (r : Fin 8) (cc : Fin 3) (p : Fin 128) (q : Fin 512) (i : S4x8x3x512x512.Idx)
    (h0 : (i 0).val = win0_3.index t (0 : Fin 4)) (h1 : (i 1).val = r.val) (h2 : (i 2).val = cc.val)
    (h3 : (i 3).val = win0_3.index t (2 : Fin 4) * 128 + p.val) (h4 : (i 4).val = q.val) :
    iblk m c 2 t (ix5 u r cc p q) = outsArr m c i := by
  obtain ⟨-, -, -, -, -, -, -, -, e0, e1, e2, e3, e4, -⟩ := idx_facts t
  have hu : u.val = 0 := by omega
  show V m c main_v245 (((cfg0.win 2).blk t).view.emb (ix5 u r cc p q)) = V m c main_v245 i
  refine congrArg (V m c main_v245) ?_
  funext a; apply Fin.ext
  match a with
  | ⟨0, _⟩ => show win0_2.index t (0 : Fin 5) * 1 + 1 * u.val = (i 0).val; omega
  | ⟨1, _⟩ => show win0_2.index t (1 : Fin 5) * 8 + 1 * r.val = (i 1).val; omega
  | ⟨2, _⟩ => show win0_2.index t (2 : Fin 5) * 3 + 1 * cc.val = (i 2).val; omega
  | ⟨3, _⟩ => show win0_2.index t (3 : Fin 5) * 128 + 1 * p.val = (i 3).val; omega
  | ⟨4, _⟩ => show win0_2.index t (4 : Fin 5) * 512 + 1 * q.val = (i 4).val; omega

/-- WHAT POINT `t` WRITES BACK is block `t` of the weighted rank sum of the arrays as the region finds them. -/
theorem flushed_eq (c : Dev nD) (t : Fin cfg0.N) :
    (dats m 0 c).flushed 3 t = ((cfg0.win 3).blk t).view.read (Elt Ideal) (wsumArr (w0Arr m c) (w1Arr m c) (outsArr m c)) := by
  show (cfg0.win 3).cut (grid0.coords t) ((dats m 0 c).after 3 t) = _
  rw [after3]
  unfold sumBlock
  rw [View.canon_unit_zero hz4]
  simp only [View.ld_unit_zero (S := S1x8x128x512) hz4, View.ld_unit_zero (S := S1x8x3x128x512) hz5]
  funext j
  obtain ⟨u, cc, p, q, rfl⟩ : ∃ (u : Fin 1) (cc : Fin 3) (p : Fin 128) (q : Fin 512), j = ix4 u cc p q :=
    ⟨j 0, j 1, j 2, j 3, eq_ix4 j⟩
  have hu : u = (0 : Fin 1) := Fin.ext (by omega)
  subst hu
  show k0_pay1 (F := Ideal) (iblk m c 0 t) (iblk m c 1 t) (iblk m c 2 t) (ix4 (0 : Fin 1) cc p q)
      = wsumArr (w0Arr m c) (w1Arr m c) (outsArr m c) (((cfg0.win 3).blk t).view.emb (ix4 (0 : Fin 1) cc p q))
  refine (pay_apply _ _ _ cc p q).trans ?_
  unfold wsumArr wsum
  refine Finset.sum_congr rfl fun r _ => ?_
  obtain ⟨-, -, -, -, -, -, -, -, -, -, -, -, -, e1, e3, -⟩ := idx_facts t
  have k0 : ((((cfg0.win 3).blk t).view.emb (ix4 (0 : Fin 1) cc p q)) 0).val = win0_3.index t (0 : Fin 4) := by
    show win0_3.index t (0 : Fin 4) * 1 + 1 * 0 = _; omega
  have k1 : ((((cfg0.win 3).blk t).view.emb (ix4 (0 : Fin 1) cc p q)) 1).val = cc.val := by
    show win0_3.index t (1 : Fin 4) * 3 + 1 * cc.val = _; omega
  have k2 : ((((cfg0.win 3).blk t).view.emb (ix4 (0 : Fin 1) cc p q)) 2).val = win0_3.index t (2 : Fin 4) * 128 + p.val := by
    show win0_3.index t (2 : Fin 4) * 128 + 1 * p.val = _; omega
  have k3 : ((((cfg0.win 3).blk t).view.emb (ix4 (0 : Fin 1) cc p q)) 3).val = q.val := by
    show win0_3.index t (3 : Fin 4) * 512 + 1 * q.val = _; omega
  rw [w0_read m c t 0 r p q (ix4 ((((cfg0.win 3).blk t).view.emb (ix4 (0 : Fin 1) cc p q)) 0) r ((((cfg0.win 3).blk t).view.emb (ix4 (0 : Fin 1) cc p q)) 2) ((((cfg0.win 3).blk t).view.emb (ix4 (0 : Fin 1) cc p q)) 3)) k0 rfl k2 k3,
    w1_read m c t 0 r p q (ix4 ((((cfg0.win 3).blk t).view.emb (ix4 (0 : Fin 1) cc p q)) 0) r ((((cfg0.win 3).blk t).view.emb (ix4 (0 : Fin 1) cc p q)) 2) ((((cfg0.win 3).blk t).view.emb (ix4 (0 : Fin 1) cc p q)) 3)) k0 rfl k2 k3,
    outs_read m c t 0 r cc p q (ix5 ((((cfg0.win 3).blk t).view.emb (ix4 (0 : Fin 1) cc p q)) 0) r ((((cfg0.win 3).blk t).view.emb (ix4 (0 : Fin 1) cc p q)) 1) ((((cfg0.win 3).blk t).view.emb (ix4 (0 : Fin 1) cc p q)) 2) ((((cfg0.win 3).blk t).view.emb (ix4 (0 : Fin 1) cc p q)) 3)) k0 rfl k1 k2 k3]

/-- An index of the result is in point `t`'s block iff each coordinate is in the block's range on its axis. -/
theorem mem_blk (t : Fin cfg0.N) (i : S4x3x512x512.Idx) :
    i ∈ ((cfg0.win 3).blk t).view.set ↔ ∀ a : Fin 4, win0_3.index t a * S1x3x128x512.size a ≤ (i a).val ∧ (i a).val < win0_3.index t a * S1x3x128x512.size a + S1x3x128x512.size a := by
  show i ∈ ((View.whole main_v246).slice (win0_3.rect t)).set ↔ _
  rw [View.set_slice_whole, Rect.mem_set_unit]
  exact Iff.rfl

/-- The sixteen blocks tile the result: index (b, c, y, x) is in the block of the point at batch b, row tile y / 128. -/
theorem cover (i : S4x3x512x512.Idx) : ∃ t : Fin cfg0.N, (cfg0.win 3).flush t = true ∧ i ∈ ((cfg0.win 3).blk t).view.set := by
  have hi0 : (i 0).val < 4 := (i 0).isLt
  have hi1 : (i 1).val < 3 := (i 1).isLt
  have hi2 : (i 2).val < 512 := (i 2).isLt
  have hi3 : (i 3).val < 512 := (i 3).isLt
  obtain ⟨t, ht⟩ := idx_onto ⟨(i 0).val, hi0⟩ ⟨(i 2).val / 128, by omega⟩
  have q0 : win0_3.index t (0 : Fin 4) = (i 0).val := congrFun ht 0
  have q1 : win0_3.index t (1 : Fin 4) = 0 := congrFun ht 1
  have q2 : win0_3.index t (2 : Fin 4) = (i 2).val / 128 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 3 ≤ (i 1).val ∧ (i 1).val < win0_3.index t (1 : Fin 4) * 3 + 3; omega
  | ⟨2, _⟩ => show win0_3.index t (2 : Fin 4) * 128 ≤ (i 2).val ∧ (i 2).val < win0_3.index t (2 : Fin 4) * 128 + 128; omega
  | ⟨3, _⟩ => show win0_3.index t (3 : Fin 4) * 512 ≤ (i 3).val ∧ (i 3).val < win0_3.index t (3 : Fin 4) * 512 + 512; omega

/-- THE RESULT ARRAY after the run: the weighted rank sum of the arrays as the region finds them. -/
theorem final (c : Dev nD) : (dats m 0 c).arrAt 3 cfg0.N = wsumArr (w0Arr m c) (w1Arr m c) (outsArr m c) :=
  (dats m 0 c).arrAt_eq_of_cover 3 (wsumArr (w0Arr m c) (w1Arr m c) (outsArr m c)) (fun t _ => flushed_eq m c t) (cover)

/-- The run, read: the result is the weighted rank sum of the two weight arguments as launched and of the sampled
    outputs the host operations computed; the four arguments are unchanged. -/
theorem run_value : θ_run defs (onTc (τ := τ) (main (F := Ideal))) ⟨m, fun _ => 0, ρ⟩ fun r => ∀ c : Dev nD,
      r.2.mem ((c.tc : Thread nD τ).loc main_v246)
        = wsumArr (m ((c.tc : Thread nD τ).loc main_arg0)) (m ((c.tc : Thread nD τ).loc main_arg1)) (outsArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans ((final m c).trans (by
        show wsumArr (V m c main_arg0) (V m c main_arg1) (outsArr m c) = _
        rw [V_main_arg0, V_main_arg1])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Hand

end
-- ==== Proof.RefValue.lean ====
/-
  The reference's last six operations, at the extended reals: the product of the two weight arrays given a unit colour
  axis and spread over the three colours (two broadcasts), multiplied with the sampled outputs and summed over the rank
  axis by the host's reduce from a zero start. Whatever array stands for the sampled outputs, that is the weighted
  rank sum of it: 0 + ∑ over the ranks of the same products.
-/
import proofs.«127394_j9612136808561_1_alg».proof.Proof.Gen.ReferenceIdeal
import proofs.«127394_j9612136808561_1_alg».proof.Proof.RankSum

noncomputable section

namespace Cert.ReferenceIdeal.RefValue

open Cert.ReferenceIdeal Cert.ReferenceIdeal.Facts₀ Idealize.ShloMosaic Idealize.ShloMosaic.ValueIdx
open Cert.RankSum

/-- The host's rank sum of the spread weight product against an array of sampled outputs is their weighted rank sum. -/
theorem host_eq (w0 w1 : FVec Ideal S4x8x512x512 .f32) (o : FVec Ideal S4x8x3x512x512 .f32) :
    Host.reduceAdd (F := Ideal)
        (mulf (broadcastInDim S4x8x3x512x512 ![0, 1, 2, 3, 4] bcast_S4x8x1x512x512_S4x8x3x512x512_0_1_2_3_4
            (broadcastInDim S4x8x1x512x512 ![0, 1, 3, 4] bcast_S4x8x512x512_S4x8x1x512x512_0_1_3_4 (mulf w0 w1))) o)
        (constant (F := Ideal) S_ .f32 0x00000000#32) reducesTo_S4x8x3x512x512_S4x3x512x512_d1 h_S_
      = wsumArr w0 w1 o := by
  funext j
  obtain ⟨b, c, p, q, rfl⟩ : ∃ (b : Fin 4) (c : Fin 3) (p : Fin 512) (q : Fin 512), j = ix4 b c p q :=
    ⟨j 0, j 1, j 2, j 3, eq_ix4 j⟩
  exact host_apply w0 w1 o _ _ _ (by decide) _ b c p q

end Cert.ReferenceIdeal.RefValue

end
-- ==== Proof.Sampled.lean ====
/-
  The sampled LUT outputs are one function of the image and the lookup table in both programs. Up to the transpose to
  [batch, rank, colour, row, column] the kernel's program and the reference apply the same host operations to the same
  two arguments; the kernel's region then finds in that buffer what the reference multiplies and sums. So the reference's
  composed result is the host's rank sum of the weight product (of the arguments, which agree) against the very array
  the kernel's region is handed. Nothing of the 300-odd operations is opened by hand: the kernel's fold of its host
  operations, evaluated at the sampled-outputs buffer, IS the reference's composed term there.
-/
import proofs.«127394_j9612136808561_1_alg».proof.Proof.IdealEntry
import proofs.«127394_j9612136808561_1_alg».proof.Proof.RefRun
import Idealize.ShloMosaic.Lib.Pipeline.Regions

set_option maxRecDepth 65536

noncomputable section

namespace Cert.Sampled

open Idealize.ShloMosaic Idealize.ShloMosaic.TcCoe Idealize.SL.Sem Idealize.ShloMosaic.StableHlo Idealize.ShloMosaic.Pipeline

variable {F : FTy → Type} [FloatOps F]

set_option maxHeartbeats 400000000 in
/-- The reference's composed result, from a memory that agrees with the kernel's on the four arguments: the host's sum
    over the rank axis, from zero, of the weight product spread over the colours times the array the kernel's region
    finds in the sampled-outputs buffer. -/
theorem reference_result (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.ValueP.res_main_v250 m' c
      = Host.reduceAdd (mulf (broadcastInDim Cert.ReferenceIdeal.S4x8x3x512x512 ![0, 1, 2, 3, 4] Cert.ReferenceIdeal.Facts₀.bcast_S4x8x1x512x512_S4x8x3x512x512_0_1_2_3_4
            (broadcastInDim Cert.ReferenceIdeal.S4x8x1x512x512 ![0, 1, 3, 4] Cert.ReferenceIdeal.Facts₀.bcast_S4x8x512x512_S4x8x1x512x512_0_1_3_4
              (mulf (m ((c.tc : Thread Cert.KernelIdeal.nD Cert.KernelIdeal.τ).loc Cert.KernelIdeal.main_arg0)) (m ((c.tc : Thread Cert.KernelIdeal.nD Cert.KernelIdeal.τ).loc Cert.KernelIdeal.main_arg1)))))
          (Cert.KernelIdeal.Hand.V m c Cert.KernelIdeal.main_v245))
        (constant Cert.ReferenceIdeal.S_ .f32 0x00000000#32) Cert.ReferenceIdeal.Facts₀.reducesTo_S4x8x3x512x512_S4x3x512x512_d1 Cert.ReferenceIdeal.Facts₀.h_S_ := by
  unfold Cert.ReferenceIdeal.ValueP.res_main_v250
  rw [h0, h1, h2, h3]
  refine congrArg (fun O : FVec F Cert.ReferenceIdeal.S4x8x3x512x512 .f32 =>
    Host.reduceAdd (mulf (broadcastInDim Cert.ReferenceIdeal.S4x8x3x512x512 ![0, 1, 2, 3, 4] Cert.ReferenceIdeal.Facts₀.bcast_S4x8x1x512x512_S4x8x3x512x512_0_1_2_3_4
            (broadcastInDim Cert.ReferenceIdeal.S4x8x1x512x512 ![0, 1, 3, 4] Cert.ReferenceIdeal.Facts₀.bcast_S4x8x512x512_S4x8x1x512x512_0_1_3_4
              (mulf (m ((c.tc : Thread Cert.KernelIdeal.nD Cert.KernelIdeal.τ).loc Cert.KernelIdeal.main_arg0)) (m ((c.tc : Thread Cert.KernelIdeal.nD Cert.KernelIdeal.τ).loc Cert.KernelIdeal.main_arg1))))) O)
        (constant Cert.ReferenceIdeal.S_ .f32 0x00000000#32) Cert.ReferenceIdeal.Facts₀.reducesTo_S4x8x3x512x512_S4x3x512x512_d1 Cert.ReferenceIdeal.Facts₀.h_S_) ?_
  show _ = StableHlo.after (Cert.KernelIdeal.Hand.stretches (F := F)).flatten (fun b => m (c, b)) (Proc.devRef .tc Cert.KernelIdeal.main_v245)
  symm
  chain_rfl

end Cert.Sampled

end
-- ==== Proof.lean ====
/-
  The certificate of the weighted rank sum kernel against its jnp reference.
  Both programs first sample the rank-8 three-colour 33³ lookup table trilinearly at the image's colours (host
  operations, the same in both), and then form, at every batch, colour and pixel, the sum over the eight ranks of
  (w₀ · w₁) times the sampled output: the kernel in a pallas_call over a 4 × 4 grid of [1, ·, 128, 512] blocks with the
  whole rank axis in each block, the reference by a broadcast, a product and one host reduce.
  Frames: the kernel's two programs by the library's frame run over hand-written proof data (the body loads three
  blocks and stores one, whole); the reference by the run of its straight line of host operations. The idealization rewrote nothing, so `preserves`
  is trivial. At the extended reals the kernel's result array is the weighted rank sum of the arrays its region finds,
  the reference's composed term is the same sum of the same arrays, the sampled outputs being one term on both sides.
-/
import proofs.«127394_j9612136808561_1_alg».proof.Defs
import proofs.«127394_j9612136808561_1_alg».proof.Proof.Gen.Kernel
import proofs.«127394_j9612136808561_1_alg».proof.Proof.Gen.KernelIdeal
import proofs.«127394_j9612136808561_1_alg».proof.Proof.Gen.ReferenceIdeal
import proofs.«127394_j9612136808561_1_alg».proof.Proof.Gen.Pre_finite_inputs
import proofs.«127394_j9612136808561_1_alg».proof.Proof.RefRun
import proofs.«127394_j9612136808561_1_alg».proof.Proof.BitsRun
import proofs.«127394_j9612136808561_1_alg».proof.Proof.IdealRun
import proofs.«127394_j9612136808561_1_alg».proof.Proof.IdealValue
import proofs.«127394_j9612136808561_1_alg».proof.Proof.RefValue
import proofs.«127394_j9612136808561_1_alg».proof.Proof.Sampled
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the weighted rank sum of the two weight
    arguments and the sampled outputs the kernel's region finds. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3⟩ := hagree c
  rw [Cert.Sampled.reference_result m m' c h0 h1 h2 h3]
  exact Cert.ReferenceIdeal.RefValue.host_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
